-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x2048 : Shape := ⟨2, ![1024, 2048]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x2048 .f32) (main_arg8 : FVec F S1024 .f32) (main_arg9 : FVec F S1024x2048 .f32) (main_arg10 : FVec F S1024 .f32) (main_v33 : IVec S_ 1) : IVec S_ 1 :=
  let main_v34 : FVec F S1024x2048 .f32 := Host.absf main_arg7
  let main_cst_12 : FVec F S_ .f32 := constant S_ .f32 0x7F800000#32
  let main_v35 : FVec F S1024x2048 .f32 := broadcastInDim S1024x2048 ![] bcast_S_S1024x2048 main_cst_12
  let main_v36 : IVec S1024x2048 1 := cmpf .olt main_v34 main_v35
  let main_c_13 : IVec S_ 1 := constantI S_ 1 1#1
  let main_v37 : IVec S_ 1 := (fun x v => Host.reduce IntOp.andi x v reducesTo_S1024x2048_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x2048 .f32 := Host.absf main_arg9
  let main_cst_16 : FVec F S_ .f32 := constant S_ .f32 0x7F800000#32
  let main_v45 : FVec F S1024x2048 .f32 := broadcastInDim S1024x2048 ![] bcast_S_S1024x2048 main_cst_16
  let main_v46 : IVec S1024x2048 1 := cmpf .olt main_v44 main_v45
  let main_c_17 : IVec S_ 1 := constantI S_ 1 1#1
  let main_v47 : IVec S_ 1 := (fun x v => Host.reduce IntOp.andi x v reducesTo_S1024x2048_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x2048 .f32) (main_arg6 : FVec F S1024 .f32) (main_arg7 : FVec F S1024x2048 .f32) (main_arg8 : FVec F S1024 .f32) (main_arg9 : FVec F S1024x2048 .f32) (main_arg10 : FVec F S1024 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x1024 .f32) (main_arg1 : FVec F S16384x1024 .f32) (main_arg2 : FVec F S16384x1024 .f32) (main_arg3 : FVec F S1024x2048 .f32) (main_arg4 : FVec F S1024 .f32) (main_arg5 : FVec F S1024x2048 .f32) (main_arg6 : FVec F S1024 .f32) (main_arg7 : FVec F S1024x2048 .f32) (main_arg8 : FVec F S1024 .f32) (main_arg9 : FVec F S1024x2048 .f32) (main_arg10 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_arg7 main_arg8 main_arg9 main_arg10 main_v13 main_v16
-- ==== Kernel.lean ====
abbrev S16384x1024 : Shape := ⟨2, ![16384, 1024]⟩
abbrev S1024x2048 : Shape := ⟨2, ![1024, 2048]⟩
abbrev S1024 : Shape := ⟨1, ![1024]⟩
abbrev S1024x1024 : Shape := ⟨2, ![1024, 1024]⟩
abbrev S4096x1024 : Shape := ⟨2, ![4096, 1024]⟩
abbrev S4096 : Shape := ⟨1, ![4096]⟩
abbrev S1x4096 : Shape := ⟨2, ![1, 4096]⟩
abbrev S128x1024 : Shape := ⟨2, ![128, 1024]⟩
abbrev S128x4096 : Shape := ⟨2, ![128, 4096]⟩

abbrev nBuf : Space → Nat
  | .hbm => 27
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x2048, .f32⟩
  | .hbm, ⟨4, _⟩ => ⟨S1024, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x2048, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S4096x1024, .f32⟩
  | .hbm, ⟨20, _⟩ => ⟨S4096x1024, .bf16⟩
  | .hbm, ⟨21, _⟩ => ⟨S4096x1024, .f32⟩
  | .hbm, ⟨22, _⟩ => ⟨S4096x1024, .bf16⟩
  | .hbm, ⟨23, _⟩ => ⟨S4096, .f32⟩
  | .hbm, ⟨24, _⟩ => ⟨S1x4096, .f32⟩
  | .hbm, ⟨25, _⟩ => ⟨S16384x1024, .f32⟩
  | .hbm, ⟨26, _⟩ => ⟨S16384x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S4096x1024, .bf16⟩
  | .local _ .vmem, ⟨7, _⟩ => ⟨S4096x1024, .bf16⟩
  | .local _ .vmem, ⟨8, _⟩ => ⟨S1x4096, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S1024x2048_S1024x1024_0_0 : S1024x2048.Slices ![0, 0] S1024x1024
  slices_S1024x2048_S1024x1024_0_1024 : S1024x2048.Slices ![0, 1024] S1024x1024
  concatenates_S1024x1024_S1024x1024_S1024x1024_S1024x1024_S4096x1024_d0 : Shape.Concatenates [S1024x1024, S1024x1024, S1024x1024, S1024x1024] S4096x1024 0
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S128x1024_S128x1024_0_0 : ∀ a, (![0, 0] : Fin 2 → Nat) a + S128x1024.size a ≤ S128x1024.size a
  h_S128x1024 : 0 < S128x1024.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  dot_S128x1024_S4096x1024_S128x4096_1_1_0_0_n_n_wf : DotDims.WF S128x1024 S4096x1024 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S16384x1024.size a
  hwx0_0 : ∀ i : grid0.Coords, EltTy.bits .f32 = 32 ∨ (Rect.block (s := S16384x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S16384x1024.size a
  hwx0_1 : ∀ i : grid0.Coords, EltTy.bits .f32 = 32 ∨ (Rect.block (s := S16384x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S16384x1024.size a
  hwx0_2 : ∀ i : grid0.Coords, EltTy.bits .f32 = 32 ∨ (Rect.block (s := S16384x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S16384x1024.size a
  hwx0_6 : ∀ i : grid0.Coords, EltTy.bits .f32 = 32 ∨ (Rect.block (s := S16384x1024) S128x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S16384x1024.size a
  hwx0_7 : ∀ i : grid0.Coords, EltTy.bits .f32 = 32 ∨ (Rect.block (s := S16384x1024) S128x1024.size (cc0_transform_7 i) (hinb0_7 i)).WholeWords (EltTy.packing .f32)

variable [Facts₀]

def dot_S128x1024_S4096x1024_S128x4096_1_1_0_0_n_n : DotDims S128x1024 S4096x1024 S128x4096 where
  lhsContracting := [1]
  rhsContracting := [1]
  lhsNonContracting := [0]
  rhsNonContracting := [0]
  lhsBatch := []
  rhsBatch := []
  wf := dot_S128x1024_S4096x1024_S128x4096_1_1_0_0_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14_0) S128x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v14_1) S128x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x2048 : Shape := ⟨2, ![1024, 2048]⟩
abbrev S1024 : Shape := ⟨1, ![1024]⟩
abbrev S16384x2048 : Shape := ⟨2, ![16384, 2048]⟩
abbrev S4096x2048 : Shape := ⟨2, ![4096, 2048]⟩
abbrev S4096 : Shape := ⟨1, ![4096]⟩
abbrev S2048x4096 : Shape := ⟨2, ![2048, 4096]⟩
abbrev S16384x4096 : Shape := ⟨2, ![16384, 4096]⟩
abbrev S1x4096 : Shape := ⟨2, ![1, 4096]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x2048, .f32⟩
  | .hbm, ⟨4, _⟩ => ⟨S1024, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x2048, .f32⟩
  | .hbm, ⟨10, _⟩ => ⟨S1024, .f32⟩
  | .hbm, ⟨11, _⟩ => ⟨S16384x2048, .f32⟩
  | .hbm, ⟨12, _⟩ => ⟨S4096x2048, .f32⟩
  | .hbm, ⟨13, _⟩ => ⟨S4096, .f32⟩
  | .hbm, ⟨14, _⟩ => ⟨S2048x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  concatenates_S16384x1024_S16384x1024_S16384x2048_d1 : Shape.Concatenates [S16384x1024, S16384x1024] S16384x2048 1
  concatenates_S1024x2048_S1024x2048_S1024x2048_S1024x2048_S4096x2048_d0 : Shape.Concatenates [S1024x2048, S1024x2048, S1024x2048, S1024x2048] S4096x2048 0
  concatenates_S1024_S1024_S1024_S1024_S4096_d0 : Shape.Concatenates [S1024, S1024, S1024, S1024] S4096 0
  transposes_S4096x2048_S2048x4096_1_0 : S4096x2048.Transposes [1, 0] S2048x4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  slices_S16384x4096_S16384x1024_0_0 : S16384x4096.Slices ![0, 0] S16384x1024
  bcast_S_S16384x1024 : S_.BroadcastsInDim S16384x1024 (![] : Fin 0 → Fin S16384x1024.rank)
  slices_S16384x4096_S16384x1024_0_1024 : S16384x4096.Slices ![0, 1024] S16384x1024
  slices_S16384x4096_S16384x1024_0_2048 : S16384x4096.Slices ![0, 2048] S16384x1024
  slices_S16384x4096_S16384x1024_0_3072 : S16384x4096.Slices ![0, 3072] S16384x1024
  dot_S16384x2048_S2048x4096_S16384x4096_1_0_0_1_n_n_wf : DotDims.WF S16384x2048 S2048x4096 S16384x4096 [1] [0] [0] [1] [] []

variable [Facts₀]

def dot_S16384x2048_S2048x4096_S16384x4096_1_0_0_1_n_n : DotDims S16384x2048 S2048x4096 S16384x4096 where
  lhsContracting := [1]
  rhsContracting := [0]
  lhsNonContracting := [0]
  rhsNonContracting := [1]
  lhsBatch := []
  rhsBatch := []
  wf := dot_S16384x2048_S2048x4096_S16384x4096_1_0_0_1_n_n_wf

class Facts : Prop extends Facts₀ where

variable [Facts]
-- ==== Proof.BitsEntry.lean ====
/-
  The region's entry. @main is fourteen host operations and then the one region: the four weight
  matrices are cut into their first and last 1024 columns, the four first halves stacked (4096×1024)
  and rounded to bf16, the four last halves likewise, the four biases stacked and laid out as one row
  (1×4096).  `V` is what each buffer holds when the region is entered; none of those operations writes
  an argument array, so the region finds all eleven as launched.
-/
import proofs.«138965_j17257178595687_1_alg».proof.Proof.Gen.Kernel.Launch
import Idealize.ShloMosaic.Lib.Pipeline.FrameBody

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers when the region is entered: the launch memory after the fourteen host operations. -/
abbrev V (c : Dev nD) (b : Ref sig .tc) : Buf (Elt F) ((c : Thread nD τ).loc b) :=
  StableHlo.after (List.flatten [hostOps0]) (fun b => m (c, b)) b

/-- None of the host operations allocates. -/
theorem hostOps0_fresh : (hostOps0 : List (HloOp τ sig (Elt F))).Forall fun op => op.fresh = ∅ := by
  simp only [List.Forall]; repeat' constructor

/-- @main is the host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append,
      List.Forall, StableHlo.unary_writes, StableHlo.nary_writes, StableHlo.reshape_writes, Finset.mem_singleton]
    repeat' apply And.intro
    all_goals exact StableHlo.devRef_ne_of_ne (by decide)))

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append,
      List.Forall, StableHlo.unary_writes, StableHlo.nary_writes, StableHlo.reshape_writes, Finset.mem_singleton]
    repeat' apply And.intro
    all_goals exact StableHlo.devRef_ne_of_ne (by decide)))

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append,
      List.Forall, StableHlo.unary_writes, StableHlo.nary_writes, StableHlo.reshape_writes, Finset.mem_singleton]
    repeat' apply And.intro
    all_goals exact StableHlo.devRef_ne_of_ne (by decide)))

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append,
      List.Forall, StableHlo.unary_writes, StableHlo.nary_writes, StableHlo.reshape_writes, Finset.mem_singleton]
    repeat' apply And.intro
    all_goals exact StableHlo.devRef_ne_of_ne (by decide)))

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append,
      List.Forall, StableHlo.unary_writes, StableHlo.nary_writes, StableHlo.reshape_writes, Finset.mem_singleton]
    repeat' apply And.intro
    all_goals exact StableHlo.devRef_ne_of_ne (by decide)))

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append,
      List.Forall, StableHlo.unary_writes, StableHlo.nary_writes, StableHlo.reshape_writes, Finset.mem_singleton]
    repeat' apply And.intro
    all_goals exact StableHlo.devRef_ne_of_ne (by decide)))

/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append,
      List.Forall, StableHlo.unary_writes, StableHlo.nary_writes, StableHlo.reshape_writes, Finset.mem_singleton]
    repeat' apply And.intro
    all_goals exact StableHlo.devRef_ne_of_ne (by decide)))

/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append,
      List.Forall, StableHlo.unary_writes, StableHlo.nary_writes, StableHlo.reshape_writes, Finset.mem_singleton]
    repeat' apply And.intro
    all_goals exact StableHlo.devRef_ne_of_ne (by decide)))

/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append,
      List.Forall, StableHlo.unary_writes, StableHlo.nary_writes, StableHlo.reshape_writes, Finset.mem_singleton]
    repeat' apply And.intro
    all_goals exact StableHlo.devRef_ne_of_ne (by decide)))

/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append, List.nil_append,
      List.Forall, StableHlo.unary_writes, StableHlo.nary_writes, StableHlo.reshape_writes, Finset.mem_singleton]
    repeat' apply And.intro
    all_goals exact StableHlo.devRef_ne_of_ne (by decide)))

/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append, List.nil_append,
      List.Forall, StableHlo.unary_writes, StableHlo.nary_writes, StableHlo.reshape_writes, Finset.mem_singleton]
    repeat' apply And.intro
    all_goals exact StableHlo.devRef_ne_of_ne (by decide)))

end Cert.Kernel.Hand

end
-- ==== Proof.BitsFrame.lean ====
/-
  The frame of the one region: every weakly fair execution of @main terminates without a fault and
  leaves the eleven argument arrays as launched.

  At grid point `t` the body is handed rows 128·t … 128·t + 127 of `x`, `h` and `c` and, whole, the
  stacked weights and the stacked bias row; it reads those six blocks, computes, and overwrites the
  whole of its two output blocks (it also reads each output block once before overwriting it, and
  drops what it read).  So after the body each input buffer holds its block and each output buffer
  holds one value stored over the whole block: the cell-state payload and the hidden-state payload
  of the six blocks.  With that as the proof data the body's triple is one symbolic run, and the
  launch theorem gives the run; the argument arrays `x`, `h`, `c` are input windows' arrays (never
  written back) and the other eight are no window's array.
-/
import proofs.«138965_j17257178595687_1_alg».proof.Proof.BitsEntry
import proofs.«138965_j17257178595687_1_alg».proof.Proof.Gen.Kernel.Skeleton
import proofs.«138965_j17257178595687_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, whether it was fetched there
    (the three row blocks, at every point) or not (the weights and the bias, after the first point: their
    index has not moved). -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- In a final state with every window's array at what the proof data computes and every other buffer as the
    region found it, the eleven argument arrays are as launched: `x`, `h`, `c` are input windows' arrays, never
    written back, so they end as the region found them; the weight matrices and the biases are no window's array;
    and the region found all eleven as launched. -/
theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).1 0).trans (((dats 0 c).arrAt_in 0 rfl _).trans ((hA c 0).trans (V_main_arg0 m c))),
      ((h c).1 2).trans (((dats 0 c).arrAt_in 2 rfl _).trans ((hA c 2).trans (V_main_arg1 m c))),
      ((h c).1 1).trans (((dats 0 c).arrAt_in 1 rfl _).trans ((hA c 1).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩

/-- The frame claim's post from such a run. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => args_kept m dats hA r h c) h

/-! ## The body's accesses and what it leaves -/

/-- The whole of a 128×1024 block, -/
abbrev rRows : Rect S128x1024 := Rect.unit (s := S128x1024) ![0, 0] S128x1024.size inb_S128x1024_S128x1024_0_0
/-- of the 4096×1024 stacked weights, -/
abbrev rStack : Rect S4096x1024 := Rect.unit (s := S4096x1024) ![0, 0] S4096x1024.size inb_S4096x1024_S4096x1024_0_0
/-- and of the 1×4096 stacked bias row. -/
abbrev rBias : Rect S1x4096 := Rect.unit (s := S1x4096) ![0, 0] S1x4096.size inb_S1x4096_S1x4096_0_0

/-- The cell-state output buffer after the body: one store of the cell-state payload over the whole block. -/
def outC (x0 x1 x2 : Vec F S128x1024 .f32) (x3 x4 : Vec F S4096x1024 .bf16) (x5 : Vec F S1x4096 .f32) : Vec F S128x1024 .f32 :=
  View.canon [⟨rRows, k0_pay2 (View.ld x0 rRows) (View.ld x1 rRows) (View.ld x3 rStack) (View.ld x4 rStack) (View.ld x5 rBias) (View.ld x2 rRows)⟩]

/-- The hidden-state output buffer after the body: one store of the hidden-state payload over the whole block. -/
def outH (x0 x1 x2 : Vec F S128x1024 .f32) (x3 x4 : Vec F S4096x1024 .bf16) (x5 : Vec F S1x4096 .f32) : Vec F S128x1024 .f32 :=
  View.canon [⟨rRows, k0_pay3 (View.ld x0 rRows) (View.ld x1 rRows) (View.ld x3 rStack) (View.ld x4 rStack) (View.ld x5 rBias) (View.ld x2 rRows)⟩]

/-- The one store covers the block. -/
theorem coverRows (p0 : Vec F S128x1024 .f32) (y : S128x1024.Idx) :
    ∃ pc ∈ ([⟨rRows, p0⟩] : List (View.Piece (Elt F) S128x1024 .f32)), y ∈ pc.1.set :=
  View.cover_of_tiled [⟨rRows, p0⟩] S128x1024.size (by rfl) y

/-! ## The body's triple -/

set_option maxHeartbeats 1000000 in
/-- The body on whole staging memrefs, the six inputs' at read contents and the two outputs' at anything, runs to
    the continuation holding the inputs' as they were and the outputs' at `outC` and `outH` of the inputs'. -/
theorem sound_kernel (c : Dev nD) (E : Set ℕ) (i : grid0.Coords)
    (a0 : Memref sig .tc .vmem S128x1024 .f32) (h0 : a0.IsWhole) (a1 : Memref sig .tc .vmem S128x1024 .f32) (h1 : a1.IsWhole)
    (a2 : Memref sig .tc .vmem S128x1024 .f32) (h2 : a2.IsWhole) (a3 : Memref sig .tc .vmem S4096x1024 .bf16) (h3 : a3.IsWhole)
    (a4 : Memref sig .tc .vmem S4096x1024 .bf16) (h4 : a4.IsWhole) (a5 : Memref sig .tc .vmem S1x4096 .f32) (h5 : a5.IsWhole)
    (a6 : Memref sig .tc .vmem S128x1024 .f32) (h6 : a6.IsWhole) (a7 : Memref sig .tc .vmem S128x1024 .f32) (h7 : a7.IsWhole)
    (x0 x1 x2 : Vec F S128x1024 .f32) (x3 x4 : Vec F S4096x1024 .bf16) (x5 : Vec F S1x4096 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5
        ∗ (∃ d, owns (c : Thread nD τ) a6 fullShare d) ∗ (∃ d, owns (c : Thread nD τ) a7 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5
            ∗ owns (c : Thread nD τ) a6 fullShare (outC x0 x1 x2 x3 x4 x5) ∗ owns (c : Thread nD τ) a7 fullShare (outH x0 x1 x2 x3 x4 x5)) -∗ K ⟨⟩))
      ⊢ wp frame (wpE (defs₀ (F := F)) Variants.none c none) E (cc0__lstm_kernel i a0 h0 a1 h1 a2 h2 a3 h3 a4 h4 a5 h5 a6 h6 a7 h7) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverRows _)
  iexists _; isplitr
  swap; · iexact H7
  ipureintro
  exact View.read_writes_eq_canon _ _ _ (coverRows _)

/-! ## The proof data -/

/-- On core `c`: the arrays as the region finds them; after the body at point `t` each input's buffer at its
    block and the two outputs' at `outC` and `outH` of the six blocks; the scoped rest untouched; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outC (iblk m c 0 t) (iblk m c 1 t) (iblk m c 2 t) (iblk m c 3 t) (iblk m c 4 t) (iblk m c 5 t)
    | ⟨7, _⟩ => outH (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents (projected, never unfolded). -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outC (iblk m c 0 t) (iblk m c 1 t) (iblk m c 2 t) (iblk m c 3 t) (iblk m c 4 t) (iblk m c 5 t) := by dsimp only [dats]
theorem after_7 (c : Dev nD) (t : Fin cfg0.N) : (dats m 0 c).after 7 t = outH (iblk m c 0 t) (iblk m c 1 t) (iblk m c 2 t) (iblk m c 3 t) (iblk m c 4 t) (iblk m c 5 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the triple applies; the invariant and the
    core's duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every window's array ending at what the proof data computes
    (an input's as the region found it, an output's overwritten block by block by what the body left) and every
    other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end, faults nowhere, and leaves the eleven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Hand

end
-- ==== Proof.IdealEntry.lean ====
/-
  The region's entry. @main is fourteen host operations and then the one region: the four weight
  matrices are cut into their first and last 1024 columns, the four first halves stacked (4096×1024)
  and rounded to bf16, the four last halves likewise, the four biases stacked and laid out as one row
  (1×4096).  `V` is what each buffer holds when the region is entered; none of those operations writes
  an argument array, so the region finds all eleven as launched.
-/
import proofs.«138965_j17257178595687_1_alg».proof.Proof.Gen.KernelIdeal.Launch
import Idealize.ShloMosaic.Lib.Pipeline.FrameBody

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers when the region is entered: the launch memory after the fourteen host operations. -/
abbrev V (c : Dev nD) (b : Ref sig .tc) : Buf (Elt F) ((c : Thread nD τ).loc b) :=
  StableHlo.after (List.flatten [hostOps0]) (fun b => m (c, b)) b

/-- None of the host operations allocates. -/
theorem hostOps0_fresh : (hostOps0 : List (HloOp τ sig (Elt F))).Forall fun op => op.fresh = ∅ := by
  simp only [List.Forall]; repeat' constructor

/-- @main is the host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append,
      List.Forall, StableHlo.unary_writes, StableHlo.nary_writes, StableHlo.reshape_writes, Finset.mem_singleton]
    repeat' apply And.intro
    all_goals exact StableHlo.devRef_ne_of_ne (by decide)))

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append,
      List.Forall, StableHlo.unary_writes, StableHlo.nary_writes, StableHlo.reshape_writes, Finset.mem_singleton]
    repeat' apply And.intro
    all_goals exact StableHlo.devRef_ne_of_ne (by decide)))

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append,
      List.Forall, StableHlo.unary_writes, StableHlo.nary_writes, StableHlo.reshape_writes, Finset.mem_singleton]
    repeat' apply And.intro
    all_goals exact StableHlo.devRef_ne_of_ne (by decide)))

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append,
      List.Forall, StableHlo.unary_writes, StableHlo.nary_writes, StableHlo.reshape_writes, Finset.mem_singleton]
    repeat' apply And.intro
    all_goals exact StableHlo.devRef_ne_of_ne (by decide)))

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append,
      List.Forall, StableHlo.unary_writes, StableHlo.nary_writes, StableHlo.reshape_writes, Finset.mem_singleton]
    repeat' apply And.intro
    all_goals exact StableHlo.devRef_ne_of_ne (by decide)))

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append,
      List.Forall, StableHlo.unary_writes, StableHlo.nary_writes, StableHlo.reshape_writes, Finset.mem_singleton]
    repeat' apply And.intro
    all_goals exact StableHlo.devRef_ne_of_ne (by decide)))

/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append,
      List.Forall, StableHlo.unary_writes, StableHlo.nary_writes, StableHlo.reshape_writes, Finset.mem_singleton]
    repeat' apply And.intro
    all_goals exact StableHlo.devRef_ne_of_ne (by decide)))

/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append,
      List.Forall, StableHlo.unary_writes, StableHlo.nary_writes, StableHlo.reshape_writes, Finset.mem_singleton]
    repeat' apply And.intro
    all_goals exact StableHlo.devRef_ne_of_ne (by decide)))

/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append,
      List.Forall, StableHlo.unary_writes, StableHlo.nary_writes, StableHlo.reshape_writes, Finset.mem_singleton]
    repeat' apply And.intro
    all_goals exact StableHlo.devRef_ne_of_ne (by decide)))

/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append, List.nil_append,
      List.Forall, StableHlo.unary_writes, StableHlo.nary_writes, StableHlo.reshape_writes, Finset.mem_singleton]
    repeat' apply And.intro
    all_goals exact StableHlo.devRef_ne_of_ne (by decide)))

/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append, List.nil_append,
      List.Forall, StableHlo.unary_writes, StableHlo.nary_writes, StableHlo.reshape_writes, Finset.mem_singleton]
    repeat' apply And.intro
    all_goals exact StableHlo.devRef_ne_of_ne (by decide)))

end Cert.KernelIdeal.Hand

end
-- ==== Proof.IdealFrame.lean ====
/-
  The frame of the one region: every weakly fair execution of @main terminates without a fault and
  leaves the eleven argument arrays as launched.

  At grid point `t` the body is handed rows 128·t … 128·t + 127 of `x`, `h` and `c` and, whole, the
  stacked weights and the stacked bias row; it reads those six blocks, computes, and overwrites the
  whole of its two output blocks (it also reads each output block once before overwriting it, and
  drops what it read).  So after the body each input buffer holds its block and each output buffer
  holds one value stored over the whole block: the cell-state payload and the hidden-state payload
  of the six blocks.  With that as the proof data the body's triple is one symbolic run, and the
  launch theorem gives the run; the argument arrays `x`, `h`, `c` are input windows' arrays (never
  written back) and the other eight are no window's array.
-/
import proofs.«138965_j17257178595687_1_alg».proof.Proof.IdealEntry
import proofs.«138965_j17257178595687_1_alg».proof.Proof.Gen.KernelIdeal.Skeleton
import proofs.«138965_j17257178595687_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, whether it was fetched there
    (the three row blocks, at every point) or not (the weights and the bias, after the first point: their
    index has not moved). -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- In a final state with every window's array at what the proof data computes and every other buffer as the
    region found it, the eleven argument arrays are as launched: `x`, `h`, `c` are input windows' arrays, never
    written back, so they end as the region found them; the weight matrices and the biases are no window's array;
    and the region found all eleven as launched. -/
theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).1 0).trans (((dats 0 c).arrAt_in 0 rfl _).trans ((hA c 0).trans (V_main_arg0 m c))),
      ((h c).1 2).trans (((dats 0 c).arrAt_in 2 rfl _).trans ((hA c 2).trans (V_main_arg1 m c))),
      ((h c).1 1).trans (((dats 0 c).arrAt_in 1 rfl _).trans ((hA c 1).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩

/-- The frame claim's post from such a run. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => args_kept m dats hA r h c) h

/-! ## The body's accesses and what it leaves -/

/-- The whole of a 128×1024 block, -/
abbrev rRows : Rect S128x1024 := Rect.unit (s := S128x1024) ![0, 0] S128x1024.size inb_S128x1024_S128x1024_0_0
/-- of the 4096×1024 stacked weights, -/
abbrev rStack : Rect S4096x1024 := Rect.unit (s := S4096x1024) ![0, 0] S4096x1024.size inb_S4096x1024_S4096x1024_0_0
/-- and of the 1×4096 stacked bias row. -/
abbrev rBias : Rect S1x4096 := Rect.unit (s := S1x4096) ![0, 0] S1x4096.size inb_S1x4096_S1x4096_0_0

/-- The cell-state output buffer after the body: one store of the cell-state payload over the whole block. -/
def outC (x0 x1 x2 : Vec F S128x1024 .f32) (x3 x4 : Vec F S4096x1024 .bf16) (x5 : Vec F S1x4096 .f32) : Vec F S128x1024 .f32 :=
  View.canon [⟨rRows, k0_pay2 (View.ld x0 rRows) (View.ld x1 rRows) (View.ld x3 rStack) (View.ld x4 rStack) (View.ld x5 rBias) (View.ld x2 rRows)⟩]

/-- The hidden-state output buffer after the body: one store of the hidden-state payload over the whole block. -/
def outH (x0 x1 x2 : Vec F S128x1024 .f32) (x3 x4 : Vec F S4096x1024 .bf16) (x5 : Vec F S1x4096 .f32) : Vec F S128x1024 .f32 :=
  View.canon [⟨rRows, k0_pay3 (View.ld x0 rRows) (View.ld x1 rRows) (View.ld x3 rStack) (View.ld x4 rStack) (View.ld x5 rBias) (View.ld x2 rRows)⟩]

/-- The one store covers the block. -/
theorem coverRows (p0 : Vec F S128x1024 .f32) (y : S128x1024.Idx) :
    ∃ pc ∈ ([⟨rRows, p0⟩] : List (View.Piece (Elt F) S128x1024 .f32)), y ∈ pc.1.set :=
  View.cover_of_tiled [⟨rRows, p0⟩] S128x1024.size (by rfl) y

/-! ## The body's triple -/

set_option maxHeartbeats 1000000 in
/-- The body on whole staging memrefs, the six inputs' at read contents and the two outputs' at anything, runs to
    the continuation holding the inputs' as they were and the outputs' at `outC` and `outH` of the inputs'. -/
theorem sound_kernel (c : Dev nD) (E : Set ℕ) (i : grid0.Coords)
    (a0 : Memref sig .tc .vmem S128x1024 .f32) (h0 : a0.IsWhole) (a1 : Memref sig .tc .vmem S128x1024 .f32) (h1 : a1.IsWhole)
    (a2 : Memref sig .tc .vmem S128x1024 .f32) (h2 : a2.IsWhole) (a3 : Memref sig .tc .vmem S4096x1024 .bf16) (h3 : a3.IsWhole)
    (a4 : Memref sig .tc .vmem S4096x1024 .bf16) (h4 : a4.IsWhole) (a5 : Memref sig .tc .vmem S1x4096 .f32) (h5 : a5.IsWhole)
    (a6 : Memref sig .tc .vmem S128x1024 .f32) (h6 : a6.IsWhole) (a7 : Memref sig .tc .vmem S128x1024 .f32) (h7 : a7.IsWhole)
    (x0 x1 x2 : Vec F S128x1024 .f32) (x3 x4 : Vec F S4096x1024 .bf16) (x5 : Vec F S1x4096 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5
        ∗ (∃ d, owns (c : Thread nD τ) a6 fullShare d) ∗ (∃ d, owns (c : Thread nD τ) a7 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5
            ∗ owns (c : Thread nD τ) a6 fullShare (outC x0 x1 x2 x3 x4 x5) ∗ owns (c : Thread nD τ) a7 fullShare (outH x0 x1 x2 x3 x4 x5)) -∗ K ⟨⟩))
      ⊢ wp frame (wpE (defs₀ (F := F)) Variants.none c none) E (cc0__lstm_kernel i a0 h0 a1 h1 a2 h2 a3 h3 a4 h4 a5 h5 a6 h6 a7 h7) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverRows _)
  iexists _; isplitr
  swap; · iexact H7
  ipureintro
  exact View.read_writes_eq_canon _ _ _ (coverRows _)

/-! ## The proof data -/

/-- On core `c`: the arrays as the region finds them; after the body at point `t` each input's buffer at its
    block and the two outputs' at `outC` and `outH` of the six blocks; the scoped rest untouched; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outC (iblk m c 0 t) (iblk m c 1 t) (iblk m c 2 t) (iblk m c 3 t) (iblk m c 4 t) (iblk m c 5 t)
    | ⟨7, _⟩ => outH (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents (projected, never unfolded). -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outC (iblk m c 0 t) (iblk m c 1 t) (iblk m c 2 t) (iblk m c 3 t) (iblk m c 4 t) (iblk m c 5 t) := by dsimp only [dats]
theorem after_7 (c : Dev nD) (t : Fin cfg0.N) : (dats m 0 c).after 7 t = outH (iblk m c 0 t) (iblk m c 1 t) (iblk m c 2 t) (iblk m c 3 t) (iblk m c 4 t) (iblk m c 5 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the triple applies; the invariant and the
    core's duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every window's array ending at what the proof data computes
    (an input's as the region found it, an output's overwritten block by block by what the body left) and every
    other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end, faults nowhere, and leaves the eleven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Hand

end
-- ==== Proof.LstmSpec.lean ====
/-
  The LSTM cell as a function of its eleven arrays, element by element, on the extended reals.

  For batch row `p` and hidden column `q`, each of the four gates has a pre-activation: the row
  `[x p, h p]` (length 2048) against row `q` of the gate's weight matrix, plus the gate's bias at `q`.
  Written here as the two halves of that inner product: the first 1024 weights meet `x`, the last
  1024 meet `h`.  The new cell state is `σ(f)·c + σ(i)·tanh(g)` and the new hidden state is
  `σ(o)·tanh(c_new)`, with `σ` the logistic function.

  The one law both sides of the equivalence lean on: a sum over 2048 terms is the sum of its first
  1024 and its last 1024 (addition on the extended reals is commutative and associative; nothing
  about finiteness is used).
-/
import Idealize.ShloMosaic.PureOps.Ideal
import Idealize.ShloMosaic.Lib.ValueIdx
import Mathlib.Algebra.BigOperators.Fin

noncomputable section

open scoped BigOperators

namespace Cert.Lstm

open Idealize.ShloMosaic Idealize.ShloMosaic.ValueIdx

/-- A matrix of extended reals over a literal rank-2 shape. -/
abbrev Mat (r c : Nat) : Type := (⟨2, ![r, c]⟩ : Shape).Idx → EReal
/-- A vector of extended reals over a literal rank-1 shape. -/
abbrev Row (n : Nat) : Type := (⟨1, ![n]⟩ : Shape).Idx → EReal

/-- Column `κ` of the `x` half of a weight row: columns 0 … 1023 of the 2048. -/
def lo (κ : Fin 1024) : Fin 2048 := ⟨κ.val, by omega⟩
/-- Column `κ` of the `h` half of a weight row: columns 1024 … 2047 of the 2048. -/
def hi (κ : Fin 1024) : Fin 2048 := ⟨1024 + κ.val, by omega⟩

@[simp] theorem lo_val (κ : Fin 1024) : (lo κ).val = κ.val := rfl
@[simp] theorem hi_val (κ : Fin 1024) : (hi κ).val = 1024 + κ.val := rfl

/-- A sum over 2048 terms is the sum over its first 1024 plus the sum over its last 1024. -/
theorem sum_split {M : Type} [AddCommMonoid M] (f : Fin 2048 → M) :
    ∑ k : Fin 2048, f k = (∑ κ : Fin 1024, f (lo κ)) + ∑ κ : Fin 1024, f (hi κ) := by
  exact Fin.sum_univ_add (a := 1024) (b := 1024) (fun k : Fin (1024 + 1024) => f ⟨k.val, k.isLt⟩)

/-- Column `q` of gate `g` among the 4096 stacked gate columns (forget, input, candidate, output: 1024 each). -/
def col (g : Fin 4) (q : Fin 1024) : Fin 4096 := ⟨1024 * g.val + q.val, by have := g.isLt; have := q.isLt; omega⟩

@[simp] theorem col_val (g : Fin 4) (q : Fin 1024) : (col g q).val = 1024 * g.val + q.val := rfl

/-- The stacked pre-activation of one block of batch rows: row `p` of the block's `x` against row `j` of the
    stacked `x` weights, the same for `h`, plus the stacked bias at `j`. -/
def gate {R : Nat} (xb hb : Mat R 1024) (wx wh : Mat 4096 1024) (bb : Mat 1 4096) (p : Fin R) (j : Fin 4096) : EReal :=
  (∑ κ : Fin 1024, xb (ix2 p κ) * wx (ix2 j κ)) + (∑ κ : Fin 1024, hb (ix2 p κ) * wh (ix2 j κ)) + bb (ix2 (0 : Fin 1) j)

/-- One gate's pre-activation at batch row `p`, hidden column `q`: `x p · W q [0:1024] + h p · W q [1024:2048] + b q`. -/
def pre (x h : Mat 16384 1024) (W : Mat 1024 2048) (b : Row 1024) (p : Fin 16384) (q : Fin 1024) : EReal :=
  (∑ κ : Fin 1024, x (ix2 p κ) * W (ix2 q (lo κ))) + (∑ κ : Fin 1024, h (ix2 p κ) * W (ix2 q (hi κ))) + b (ix1 q)

/-- The new cell state: `σ(f)·c + σ(i)·tanh(g)`. -/
def cNew (x c h : Mat 16384 1024) (Wf : Mat 1024 2048) (bf : Row 1024) (Wi : Mat 1024 2048) (bi : Row 1024)
    (Wc : Mat 1024 2048) (bc : Row 1024) (p : Fin 16384) (q : Fin 1024) : EReal :=
  Ideal.logistic (pre x h Wf bf p q) * c (ix2 p q) + Ideal.logistic (pre x h Wi bi p q) * Ideal.tanh (pre x h Wc bc p q)

/-- The new hidden state: `σ(o)·tanh(c_new)`. -/
def hNew (x c h : Mat 16384 1024) (Wf : Mat 1024 2048) (bf : Row 1024) (Wi : Mat 1024 2048) (bi : Row 1024)
    (Wc : Mat 1024 2048) (bc : Row 1024) (Wo : Mat 1024 2048) (bo : Row 1024) (p : Fin 16384) (q : Fin 1024) : EReal :=
  Ideal.logistic (pre x h Wo bo p q) * Ideal.tanh (cNew x c h Wf bf Wi bi Wc bc p q)

/-- The new cell state as a whole array. -/
def cNewArr (x c h : Mat 16384 1024) (Wf : Mat 1024 2048) (bf : Row 1024) (Wi : Mat 1024 2048) (bi : Row 1024)
    (Wc : Mat 1024 2048) (bc : Row 1024) : Mat 16384 1024 :=
  fun j => cNew x c h Wf bf Wi bi Wc bc (j 0) (j 1)

/-- The new hidden state as a whole array. -/
def hNewArr (x c h : Mat 16384 1024) (Wf : Mat 1024 2048) (bf : Row 1024) (Wi : Mat 1024 2048) (bi : Row 1024)
    (Wc : Mat 1024 2048) (bc : Row 1024) (Wo : Mat 1024 2048) (bo : Row 1024) : Mat 16384 1024 :=
  fun j => hNew x c h Wf bf Wi bi Wc bc Wo bo (j 0) (j 1)

end Cert.Lstm

end
-- ==== Proof.IdealStack.lean ====
/-
  The three arrays the host builds for the kernel, read at an index.  The stacked `x` weights hold, in
  rows 1024·g … 1024·g + 1023, the first 1024 columns of gate g's matrix; the stacked `h` weights the
  last 1024 columns; the stacked bias row holds gate g's bias in columns 1024·g … 1024·g + 1023.
  (Rounding to bf16 is the identity on exact values.)
-/
import proofs.«138965_j17257178595687_1_alg».proof.Proof.IdealEntry
import proofs.«138965_j17257178595687_1_alg».proof.Proof.LstmSpec
import Idealize.ShloMosaic.Lib.Pipeline.Value
import Idealize.ShloMosaic.Lib.ValueLayout
import Idealize.ShloMosaic.Lib.StableHlo.Run

noncomputable section

namespace Cert.KernelIdeal.Hand

open Cert.KernelIdeal Cert.KernelIdeal.Gen Cert.Lstm
open Idealize.ShloMosaic Idealize.ShloMosaic.TcCoe Idealize.ShloMosaic.ValueIdx Idealize.SL.Sem

variable (m : (ℓ : Loc nD τ sig) → Buf (Elt Ideal) ℓ)

/-! ## The layout operations, read at an index -/

section Layout
variable {α : Type}

/-- Four 1024×1024 pieces stacked along the rows: row `1024·g + q` of the stack is row `q` of piece `g`. -/
theorem stackRows_apply (u0 u1 u2 u3 : S1024x1024.Idx → α)
    (h : Shape.Concatenates [S1024x1024, S1024x1024, S1024x1024, S1024x1024] S4096x1024 0) (g : Fin 4) (q κ : Fin 1024) :
    concatenate S4096x1024 0 [⟨S1024x1024, u0⟩, ⟨S1024x1024, u1⟩, ⟨S1024x1024, u2⟩, ⟨S1024x1024, u3⟩] h (ix2 (col g q) κ)
      = (![u0, u1, u2, u3] g) (ix2 q κ) := by
  -- piece `g` begins after `1024·g` rows; inside it the row is `q` and the column is unchanged
  refine concatenate_apply_piece (0 : Fin S4096x1024.rank)
    [⟨S1024x1024, u0⟩, ⟨S1024x1024, u1⟩, ⟨S1024x1024, u2⟩, ⟨S1024x1024, u3⟩] h _ g.val
    (by have := g.isLt; simpa using this) S1024x1024 (![u0, u1, u2, u3] g) ?_ rfl (1024 * g.val) ?_ (ix2 q κ) ?_ ?_
  · fin_cases g <;> rfl
  · fin_cases g <;> rfl
  · intro b hb
    match b with
    | ⟨0, _⟩ => exact absurd rfl hb
    | ⟨1, _⟩ => rfl
  · rfl

/-- Four length-1024 pieces laid end to end: entry `1024·g + q` is entry `q` of piece `g`. -/
theorem stackVec_apply (u0 u1 u2 u3 : S1024.Idx → α)
    (h : Shape.Concatenates [S1024, S1024, S1024, S1024] S4096 0) (g : Fin 4) (q : Fin 1024) :
    concatenate S4096 0 [⟨S1024, u0⟩, ⟨S1024, u1⟩, ⟨S1024, u2⟩, ⟨S1024, u3⟩] h (ix1 (col g q))
      = (![u0, u1, u2, u3] g) (ix1 q) := by
  refine concatenate_apply_piece (0 : Fin S4096.rank)
    [⟨S1024, u0⟩, ⟨S1024, u1⟩, ⟨S1024, u2⟩, ⟨S1024, u3⟩] h _ g.val
    (by have := g.isLt; simpa using this) S1024 (![u0, u1, u2, u3] g) ?_ rfl (1024 * g.val) ?_ (ix1 q) ?_ ?_
  · fin_cases g <;> rfl
  · fin_cases g <;> rfl
  · intro b hb
    match b with
    | ⟨0, _⟩ => exact absurd rfl hb
  · rfl

/-- The first 1024 columns of a 1024×2048 matrix: entry `(q, κ)` is the matrix at `(q, κ)`. -/
theorem sliceLo_apply (W : S1024x2048.Idx → α) (h : S1024x2048.Slices ![0, 0] S1024x1024) (q κ : Fin 1024) :
    extractStridedSlice S1024x1024 ![0, 0] W h (ix2 q κ) = W (ix2 q (lo κ)) := by
  refine extractStridedSlice_apply _ W h _ _ fun a => ?_
  match a with
  | ⟨0, _⟩ => show q.val = 0 + q.val; omega
  | ⟨1, _⟩ => show κ.val = 0 + κ.val; omega

/-- The last 1024 columns of a 1024×2048 matrix: entry `(q, κ)` is the matrix at `(q, 1024 + κ)`. -/
theorem sliceHi_apply (W : S1024x2048.Idx → α) (h : S1024x2048.Slices ![0, 1024] S1024x1024) (q κ : Fin 1024) :
    extractStridedSlice S1024x1024 ![0, 1024] W h (ix2 q κ) = W (ix2 q (hi κ)) := by
  refine extractStridedSlice_apply _ W h _ _ fun a => ?_
  match a with
  | ⟨0, _⟩ => show q.val = 0 + q.val; omega
  | ⟨1, _⟩ => rfl

/-- A length-4096 vector laid out as one row: entry `(0, j)` of the row is entry `j` of the vector. -/
theorem rowOf_apply (v : S4096.Idx → α) (h : S4096.ShapeCasts S1x4096) (j : Fin 4096) :
    shapeCast S1x4096 v h (ix2 (0 : Fin 1) j) = v (ix1 j) := by
  refine (shapeCast_addUnit_apply ![4096] v h (ix2 (0 : Fin 1) j)).trans (congrArg v ?_)
  funext a
  match a with
  | ⟨0, _⟩ => rfl

end Layout

/-! ## The three arrays as terms of the argument arrays -/

/-- The stacked `x` weights: the four matrices' first 1024 columns, stacked along the rows and rounded to bf16. -/
theorem V_main_v9_eq (c : Dev nD) :
    (V m c main_v9 : S4096x1024.Idx → EReal) =
      truncf (F := Ideal) .bf16 (concatenate S4096x1024 0
        [⟨S1024x1024, extractStridedSlice S1024x1024 ![0, 0] (m ((c : Thread nD τ).loc main_arg3) : S1024x2048.Idx → EReal) slices_S1024x2048_S1024x1024_0_0⟩,
         ⟨S1024x1024, extractStridedSlice S1024x1024 ![0, 0] (m ((c : Thread nD τ).loc main_arg5) : S1024x2048.Idx → EReal) slices_S1024x2048_S1024x1024_0_0⟩,
         ⟨S1024x1024, extractStridedSlice S1024x1024 ![0, 0] (m ((c : Thread nD τ).loc main_arg7) : S1024x2048.Idx → EReal) slices_S1024x2048_S1024x1024_0_0⟩,
         ⟨S1024x1024, extractStridedSlice S1024x1024 ![0, 0] (m ((c : Thread nD τ).loc main_arg9) : S1024x2048.Idx → EReal) slices_S1024x2048_S1024x1024_0_0⟩]
        concatenates_S1024x1024_S1024x1024_S1024x1024_S1024x1024_S4096x1024_d0) bitsLt_bf16_f32 := by
  dsimp only [V]
  simp only [hostOps0, List.flatten_cons, List.flatten_nil, List.append_nil]
  after_results
  rfl

/-- The stacked `h` weights: the four matrices' last 1024 columns, stacked along the rows and rounded to bf16. -/
theorem V_main_v11_eq (c : Dev nD) :
    (V m c main_v11 : S4096x1024.Idx → EReal) =
      truncf (F := Ideal) .bf16 (concatenate S4096x1024 0
        [⟨S1024x1024, extractStridedSlice S1024x1024 ![0, 1024] (m ((c : Thread nD τ).loc main_arg3) : S1024x2048.Idx → EReal) slices_S1024x2048_S1024x1024_0_1024⟩,
         ⟨S1024x1024, extractStridedSlice S1024x1024 ![0, 1024] (m ((c : Thread nD τ).loc main_arg5) : S1024x2048.Idx → EReal) slices_S1024x2048_S1024x1024_0_1024⟩,
         ⟨S1024x1024, extractStridedSlice S1024x1024 ![0, 1024] (m ((c : Thread nD τ).loc main_arg7) : S1024x2048.Idx → EReal) slices_S1024x2048_S1024x1024_0_1024⟩,
         ⟨S1024x1024, extractStridedSlice S1024x1024 ![0, 1024] (m ((c : Thread nD τ).loc main_arg9) : S1024x2048.Idx → EReal) slices_S1024x2048_S1024x1024_0_1024⟩]
        concatenates_S1024x1024_S1024x1024_S1024x1024_S1024x1024_S4096x1024_d0) bitsLt_bf16_f32 := by
  dsimp only [V]
  simp only [hostOps0, List.flatten_cons, List.flatten_nil, List.append_nil]
  after_results
  rfl

/-- The stacked bias row: the four biases laid end to end, as one row. -/
theorem V_main_v13_eq (c : Dev nD) :
    (V m c main_v13 : S1x4096.Idx → EReal) =
      shapeCast S1x4096 (concatenate S4096 0
        [⟨S1024, (m ((c : Thread nD τ).loc main_arg4) : S1024.Idx → EReal)⟩,
         ⟨S1024, (m ((c : Thread nD τ).loc main_arg6) : S1024.Idx → EReal)⟩,
         ⟨S1024, (m ((c : Thread nD τ).loc main_arg8) : S1024.Idx → EReal)⟩,
         ⟨S1024, (m ((c : Thread nD τ).loc main_arg10) : S1024.Idx → EReal)⟩]
        concatenates_S1024_S1024_S1024_S1024_S4096_d0) shapeCasts_S4096_S1x4096 := by
  dsimp only [V]
  simp only [hostOps0, List.flatten_cons, List.flatten_nil, List.append_nil]
  after_results
  rfl

/-! ## Each array at an index, for any gate -/

/-- Row `q` of gate `g`'s band of the stacked `x` weights is row `q` of that gate's matrix, columns 0 … 1023. -/
theorem stackX (c : Dev nD) (g : Fin 4) (q κ : Fin 1024) :
    (V m c main_v9 : S4096x1024.Idx → EReal) (ix2 (col g q) κ)
      = (![(m ((c : Thread nD τ).loc main_arg3) : S1024x2048.Idx → EReal), (m ((c : Thread nD τ).loc main_arg5) : S1024x2048.Idx → EReal),
           (m ((c : Thread nD τ).loc main_arg7) : S1024x2048.Idx → EReal), (m ((c : Thread nD τ).loc main_arg9) : S1024x2048.Idx → EReal)] g) (ix2 q (lo κ)) := by
  rw [V_main_v9_eq]
  -- rounding is the identity on exact values
  refine (truncf_apply (φ := .f32) (ψ := .bf16) _ bitsLt_bf16_f32 _).trans ?_
  rw [stackRows_apply]
  fin_cases g <;> exact sliceLo_apply _ slices_S1024x2048_S1024x1024_0_0 q κ

/-- Row `q` of gate `g`'s band of the stacked `h` weights is row `q` of that gate's matrix, columns 1024 … 2047. -/
theorem stackH (c : Dev nD) (g : Fin 4) (q κ : Fin 1024) :
    (V m c main_v11 : S4096x1024.Idx → EReal) (ix2 (col g q) κ)
      = (![(m ((c : Thread nD τ).loc main_arg3) : S1024x2048.Idx → EReal), (m ((c : Thread nD τ).loc main_arg5) : S1024x2048.Idx → EReal),
           (m ((c : Thread nD τ).loc main_arg7) : S1024x2048.Idx → EReal), (m ((c : Thread nD τ).loc main_arg9) : S1024x2048.Idx → EReal)] g) (ix2 q (hi κ)) := by
  rw [V_main_v11_eq]
  refine (truncf_apply (φ := .f32) (ψ := .bf16) _ bitsLt_bf16_f32 _).trans ?_
  rw [stackRows_apply]
  fin_cases g <;> exact sliceHi_apply _ slices_S1024x2048_S1024x1024_0_1024 q κ

/-- Entry `q` of gate `g`'s band of the stacked bias row is that gate's bias at `q`. -/
theorem stackB (c : Dev nD) (g : Fin 4) (q : Fin 1024) :
    (V m c main_v13 : S1x4096.Idx → EReal) (ix2 (0 : Fin 1) (col g q))
      = (![(m ((c : Thread nD τ).loc main_arg4) : S1024.Idx → EReal), (m ((c : Thread nD τ).loc main_arg6) : S1024.Idx → EReal),
           (m ((c : Thread nD τ).loc main_arg8) : S1024.Idx → EReal), (m ((c : Thread nD τ).loc main_arg10) : S1024.Idx → EReal)] g) (ix1 q) := by
  rw [V_main_v13_eq, rowOf_apply, stackVec_apply]

/-! ## The twelve instances -/

/-- Row `q` of gate 0's band of the stacked `x` weights is row `q` of that gate's matrix, columns 0 … 1023. -/
theorem stackX_f (c : Dev nD) (q κ : Fin 1024) :
    (V m c main_v9 : S4096x1024.Idx → EReal) (ix2 (col 0 q) κ) = (m ((c : Thread nD τ).loc main_arg3) : S1024x2048.Idx → EReal) (ix2 q (lo κ)) :=
  stackX m c 0 q κ

/-- Row `q` of gate 0's band of the stacked `h` weights is row `q` of that gate's matrix, columns 1024 … 2047. -/
theorem stackH_f (c : Dev nD) (q κ : Fin 1024) :
    (V m c main_v11 : S4096x1024.Idx → EReal) (ix2 (col 0 q) κ) = (m ((c : Thread nD τ).loc main_arg3) : S1024x2048.Idx → EReal) (ix2 q (hi κ)) :=
  stackH m c 0 q κ

/-- Entry `q` of gate 0's band of the stacked bias row is that gate's bias at `q`. -/
theorem stackB_f (c : Dev nD) (q : Fin 1024) :
    (V m c main_v13 : S1x4096.Idx → EReal) (ix2 (0 : Fin 1) (col 0 q)) = (m ((c : Thread nD τ).loc main_arg4) : S1024.Idx → EReal) (ix1 q) :=
  stackB m c 0 q

/-- Row `q` of gate 1's band of the stacked `x` weights is row `q` of that gate's matrix, columns 0 … 1023. -/
theorem stackX_i (c : Dev nD) (q κ : Fin 1024) :
    (V m c main_v9 : S4096x1024.Idx → EReal) (ix2 (col 1 q) κ) = (m ((c : Thread nD τ).loc main_arg5) : S1024x2048.Idx → EReal) (ix2 q (lo κ)) :=
  stackX m c 1 q κ

/-- Row `q` of gate 1's band of the stacked `h` weights is row `q` of that gate's matrix, columns 1024 … 2047. -/
theorem stackH_i (c : Dev nD) (q κ : Fin 1024) :
    (V m c main_v11 : S4096x1024.Idx → EReal) (ix2 (col 1 q) κ) = (m ((c : Thread nD τ).loc main_arg5) : S1024x2048.Idx → EReal) (ix2 q (hi κ)) :=
  stackH m c 1 q κ

/-- Entry `q` of gate 1's band of the stacked bias row is that gate's bias at `q`. -/
theorem stackB_i (c : Dev nD) (q : Fin 1024) :
    (V m c main_v13 : S1x4096.Idx → EReal) (ix2 (0 : Fin 1) (col 1 q)) = (m ((c : Thread nD τ).loc main_arg6) : S1024.Idx → EReal) (ix1 q) :=
  stackB m c 1 q

/-- Row `q` of gate 2's band of the stacked `x` weights is row `q` of that gate's matrix, columns 0 … 1023. -/
theorem stackX_c (c : Dev nD) (q κ : Fin 1024) :
    (V m c main_v9 : S4096x1024.Idx → EReal) (ix2 (col 2 q) κ) = (m ((c : Thread nD τ).loc main_arg7) : S1024x2048.Idx → EReal) (ix2 q (lo κ)) :=
  stackX m c 2 q κ

/-- Row `q` of gate 2's band of the stacked `h` weights is row `q` of that gate's matrix, columns 1024 … 2047. -/
theorem stackH_c (c : Dev nD) (q κ : Fin 1024) :
    (V m c main_v11 : S4096x1024.Idx → EReal) (ix2 (col 2 q) κ) = (m ((c : Thread nD τ).loc main_arg7) : S1024x2048.Idx → EReal) (ix2 q (hi κ)) :=
  stackH m c 2 q κ

/-- Entry `q` of gate 2's band of the stacked bias row is that gate's bias at `q`. -/
theorem stackB_c (c : Dev nD) (q : Fin 1024) :
    (V m c main_v13 : S1x4096.Idx → EReal) (ix2 (0 : Fin 1) (col 2 q)) = (m ((c : Thread nD τ).loc main_arg8) : S1024.Idx → EReal) (ix1 q) :=
  stackB m c 2 q

/-- Row `q` of gate 3's band of the stacked `x` weights is row `q` of that gate's matrix, columns 0 … 1023. -/
theorem stackX_o (c : Dev nD) (q κ : Fin 1024) :
    (V m c main_v9 : S4096x1024.Idx → EReal) (ix2 (col 3 q) κ) = (m ((c : Thread nD τ).loc main_arg9) : S1024x2048.Idx → EReal) (ix2 q (lo κ)) :=
  stackX m c 3 q κ

/-- Row `q` of gate 3's band of the stacked `h` weights is row `q` of that gate's matrix, columns 1024 … 2047. -/
theorem stackH_o (c : Dev nD) (q κ : Fin 1024) :
    (V m c main_v11 : S4096x1024.Idx → EReal) (ix2 (col 3 q) κ) = (m ((c : Thread nD τ).loc main_arg9) : S1024x2048.Idx → EReal) (ix2 q (hi κ)) :=
  stackH m c 3 q κ

/-- Entry `q` of gate 3's band of the stacked bias row is that gate's bias at `q`. -/
theorem stackB_o (c : Dev nD) (q : Fin 1024) :
    (V m c main_v13 : S1x4096.Idx → EReal) (ix2 (0 : Fin 1) (col 3 q)) = (m ((c : Thread nD τ).loc main_arg10) : S1024.Idx → EReal) (ix1 q) :=
  stackB m c 3 q

end Cert.KernelIdeal.Hand

end
-- ==== Proof.BodyValue.lean ====
/-
  What the kernel body stores, read at one element of the block: the stacked pre-activations of the
  block's rows at the four gate columns, through the logistic function and tanh.
-/
import proofs.«138965_j17257178595687_1_alg».proof.Proof.Gen.KernelIdeal.Skeleton
import proofs.«138965_j17257178595687_1_alg».proof.Proof.LstmSpec
import Idealize.ShloMosaic.Lib.Pipeline.Value
import Idealize.ShloMosaic.Lib.ValueLayout
import Idealize.ShloMosaic.PureOps.Ideal.Laws

noncomputable section

open scoped BigOperators

namespace Cert.Lstm.Body

open Cert.KernelIdeal Cert.KernelIdeal.Gen Idealize.ShloMosaic Idealize.ShloMosaic.ValueIdx Cert.Lstm

/-! ## The matmul of a block of rows against the stacked weights, read at an element

The dimension numbers contract axis 1 of the left operand with axis 1 of the right operand: the left operand is read
at (row, contraction position), the right operand at (column, contraction position). -/

/-- The left operand's row is the result's row. -/
theorem lhs_gates_0 (i : S128x4096.Idx) (q : dot_S128x1024_S4096x1024_S128x4096_1_1_0_0_n_n.contr.Idx) :
    (dot_S128x1024_S4096x1024_S128x4096_1_1_0_0_n_n.lhsIdx i q 0).val = (i 0).val := by
  unfold DotDims.lhsIdx
  rw [dif_neg (show ¬(0 : Fin S128x1024.rank) ∈ dot_S128x1024_S4096x1024_S128x4096_1_1_0_0_n_n.lhsBatch by decide), dif_pos (show (0 : Fin S128x1024.rank) ∈ dot_S128x1024_S4096x1024_S128x4096_1_1_0_0_n_n.lhsNonContracting by decide)]
  rfl
/-- The left operand's column is the contraction position. -/
theorem lhs_gates_1 (i : S128x4096.Idx) (q : dot_S128x1024_S4096x1024_S128x4096_1_1_0_0_n_n.contr.Idx) :
    (dot_S128x1024_S4096x1024_S128x4096_1_1_0_0_n_n.lhsIdx i q 1).val = (q ⟨0, by decide⟩).val :=
  dot_S128x1024_S4096x1024_S128x4096_1_1_0_0_n_n.lhsIdx_val_of_single rfl i q
/-- The right operand's row is the result's column. -/
theorem rhs_gates_0 (i : S128x4096.Idx) (q : dot_S128x1024_S4096x1024_S128x4096_1_1_0_0_n_n.contr.Idx) :
    (dot_S128x1024_S4096x1024_S128x4096_1_1_0_0_n_n.rhsIdx i q 0).val = (i 1).val := by
  unfold DotDims.rhsIdx
  rw [dif_neg (show ¬(0 : Fin S4096x1024.rank) ∈ dot_S128x1024_S4096x1024_S128x4096_1_1_0_0_n_n.rhsBatch by decide), dif_pos (show (0 : Fin S4096x1024.rank) ∈ dot_S128x1024_S4096x1024_S128x4096_1_1_0_0_n_n.rhsNonContracting by decide)]
  rfl
/-- The right operand's column is the contraction position. -/
theorem rhs_gates_1 (i : S128x4096.Idx) (q : dot_S128x1024_S4096x1024_S128x4096_1_1_0_0_n_n.contr.Idx) :
    (dot_S128x1024_S4096x1024_S128x4096_1_1_0_0_n_n.rhsIdx i q 1).val = (q ⟨0, by decide⟩).val :=
  dot_S128x1024_S4096x1024_S128x4096_1_1_0_0_n_n.rhsIdx_val_of_single rfl i q

/-- Into the zero accumulator the matmul at row `p`, column `j` is the inner product of the left operand's row `p`
    with the right operand's row `j`. -/
theorem matmul_zero_apply (l : FVec Ideal S128x1024 .bf16) (r : FVec Ideal S4096x1024 .bf16) (p : Fin 128) (j : Fin 4096) :
    matmul dot_S128x1024_S4096x1024_S128x4096_1_1_0_0_n_n none l r (constant (F := Ideal) S128x4096 .f32 0x00000000#32) (ix2 p j)
      = ∑ κ : Fin 1024, l (ix2 p κ) * r (ix2 j κ) := by
  simp only [matmul]
  rw [Ideal.matmul_constant_zero_apply, ← Equiv.sum_comp (contrEquiv1 dot_S128x1024_S4096x1024_S128x4096_1_1_0_0_n_n 1024 rfl rfl).symm]
  refine Finset.sum_congr rfl fun k _ => ?_
  have hk := contrEquiv1_symm_val dot_S128x1024_S4096x1024_S128x4096_1_1_0_0_n_n 1024 rfl rfl k
  have el : dot_S128x1024_S4096x1024_S128x4096_1_1_0_0_n_n.lhsIdx (ix2 p j) ((contrEquiv1 dot_S128x1024_S4096x1024_S128x4096_1_1_0_0_n_n 1024 rfl rfl).symm k) = ix2 p k := funext fun a => Fin.ext (by
    match a with
    | ⟨0, _⟩ => exact lhs_gates_0 _ _
    | ⟨1, _⟩ => exact (lhs_gates_1 _ _).trans hk)
  have er : dot_S128x1024_S4096x1024_S128x4096_1_1_0_0_n_n.rhsIdx (ix2 p j) ((contrEquiv1 dot_S128x1024_S4096x1024_S128x4096_1_1_0_0_n_n 1024 rfl rfl).symm k) = ix2 j k := funext fun a => Fin.ext (by
    match a with
    | ⟨0, _⟩ => exact rhs_gates_0 _ _
    | ⟨1, _⟩ => exact (rhs_gates_1 _ _).trans hk)
  rw [el, er]

/-! ## The gates block read at an element -/

/-- The stacked pre-activations of the block's rows: row `p`, stacked column `j`. -/
theorem pay1_apply (xb hb : Vec Ideal S128x1024 .f32) (wx wh : Vec Ideal S4096x1024 .bf16) (bb : Vec Ideal S1x4096 .f32)
    (p : Fin 128) (j : Fin 4096) :
    k0_pay1 (F := Ideal) xb hb wx wh bb (ix2 p j) = gate xb hb wx wh bb p j := by
  have h : k0_pay1 (F := Ideal) xb hb wx wh bb (ix2 p j)
      = matmul dot_S128x1024_S4096x1024_S128x4096_1_1_0_0_n_n none (truncf .bf16 xb bitsLt_bf16_f32 : FVec Ideal S128x1024 .bf16)
            (shapeCast S4096x1024 wx shapeCasts_S4096x1024_S4096x1024 : FVec Ideal S4096x1024 .bf16)
            (constant (F := Ideal) S128x4096 .f32 0x00000000#32) (ix2 p j)
        + matmul dot_S128x1024_S4096x1024_S128x4096_1_1_0_0_n_n none (truncf .bf16 hb bitsLt_bf16_f32 : FVec Ideal S128x1024 .bf16)
            (shapeCast S4096x1024 wh shapeCasts_S4096x1024_S4096x1024 : FVec Ideal S4096x1024 .bf16)
            (constant (F := Ideal) S128x4096 .f32 0x00000000#32) (ix2 p j)
        + broadcastTo S128x4096 (shapeCast S1x4096 bb shapeCasts_S1x4096_S1x4096) broadcasts_S1x4096_S128x4096 (ix2 p j) := rfl
  rw [h, shapeCast_self, shapeCast_self, shapeCast_self, matmul_zero_apply, matmul_zero_apply, broadcastTo_1b_ab_apply]
  rfl

/-! ## The elementwise functions and the slices read at an element -/

/-- The logistic function of a block reads elementwise. -/
theorem logistic_apply {s : Shape} {φ : FTy} (a : FVec Ideal s φ) (i : s.Idx) : logistic a i = Ideal.logistic (a i) := rfl
/-- The hyperbolic tangent of a block reads elementwise. -/
theorem tanh_apply {s : Shape} {φ : FTy} (a : FVec Ideal s φ) (i : s.Idx) : tanh a i = Ideal.tanh (a i) := rfl

/-- A slice of 1024 columns of the gates block starting at column `o`, read at row `p`, column `q`, is the block at
    row `p`, column `o + q`. -/
theorem slice_apply (o : Nat) (x : FVec Ideal S128x4096 .f32) (h : S128x4096.Slices ![0, o] S128x1024) (p : Fin 128) (q : Fin 1024)
    (c : Fin 4096) (hc : c.val = o + q.val) :
    extractStridedSlice S128x1024 ![0, o] x h (ix2 p q) = x (ix2 p c) :=
  extractStridedSlice_apply ![0, o] x h (ix2 p q) (ix2 p c) fun a => by
    match a with
    | ⟨0, _⟩ => show p.val = 0 + p.val; omega
    | ⟨1, _⟩ => exact hc

/-- The value stored into the cell-state block, at row `p` and column `q` of the block. -/
theorem pay2_apply (xb hb : Vec Ideal S128x1024 .f32) (wx wh : Vec Ideal S4096x1024 .bf16) (bb : Vec Ideal S1x4096 .f32)
    (cb : Vec Ideal S128x1024 .f32) (p : Fin 128) (q : Fin 1024) :
    k0_pay2 (F := Ideal) xb hb wx wh bb cb (ix2 p q)
      = Ideal.logistic (gate xb hb wx wh bb p (col 0 q)) * cb (ix2 p q)
        + Ideal.logistic (gate xb hb wx wh bb p (col 1 q)) * Ideal.tanh (gate xb hb wx wh bb p (col 2 q)) := by
  have h : k0_pay2 (F := Ideal) xb hb wx wh bb cb (ix2 p q)
      = Ideal.logistic (extractStridedSlice S128x1024 ![0, 0] (k0_pay1 (F := Ideal) xb hb wx wh bb) slices_S128x4096_o0_0_S128x1024 (ix2 p q))
          * cb (ix2 p q)
        + Ideal.logistic (extractStridedSlice S128x1024 ![0, 1024] (k0_pay1 (F := Ideal) xb hb wx wh bb) slices_S128x4096_o0_1024_S128x1024 (ix2 p q))
          * Ideal.tanh (extractStridedSlice S128x1024 ![0, 2048] (k0_pay1 (F := Ideal) xb hb wx wh bb) slices_S128x4096_o0_2048_S128x1024 (ix2 p q)) := rfl
  rw [h, slice_apply 0 _ _ p q (col 0 q) rfl, slice_apply 1024 _ _ p q (col 1 q) rfl, slice_apply 2048 _ _ p q (col 2 q) rfl,
    pay1_apply, pay1_apply, pay1_apply]

/-- The value stored into the hidden-state block, at row `p` and column `q` of the block. -/
theorem pay3_apply (xb hb : Vec Ideal S128x1024 .f32) (wx wh : Vec Ideal S4096x1024 .bf16) (bb : Vec Ideal S1x4096 .f32)
    (cb : Vec Ideal S128x1024 .f32) (p : Fin 128) (q : Fin 1024) :
    k0_pay3 (F := Ideal) xb hb wx wh bb cb (ix2 p q)
      = Ideal.logistic (gate xb hb wx wh bb p (col 3 q))
        * Ideal.tanh (Ideal.logistic (gate xb hb wx wh bb p (col 0 q)) * cb (ix2 p q)
          + Ideal.logistic (gate xb hb wx wh bb p (col 1 q)) * Ideal.tanh (gate xb hb wx wh bb p (col 2 q))) := by
  have h : k0_pay3 (F := Ideal) xb hb wx wh bb cb (ix2 p q)
      = Ideal.logistic (extractStridedSlice S128x1024 ![0, 3072] (k0_pay1 (F := Ideal) xb hb wx wh bb) slices_S128x4096_o0_3072_S128x1024 (ix2 p q))
          * Ideal.tanh (k0_pay2 (F := Ideal) xb hb wx wh bb cb (ix2 p q)) := rfl
  rw [h, slice_apply 3072 _ _ p q (col 3 q) rfl, pay1_apply, pay2_apply]

end Cert.Lstm.Body

end
-- ==== Proof.IdealValue.lean ====
/-
  The two result arrays after the run, as functions of the argument arrays.

  Point `t` of the grid writes back rows 128·t … 128·t + 127 of each result.  Row `p` of its `x`, `h`, `c`
  blocks is row 128·t + p of the arrays; its weight and bias blocks are the whole stacked arrays, whose
  band of gate `g` is that gate's matrix (first or last 1024 columns) or bias.  So the stacked
  pre-activation the body computes at row `p`, stacked column 1024·g + q, is gate `g`'s pre-activation at
  batch row 128·t + p, hidden column `q`; what the body stores is the new cell state and the new hidden
  state there.  The 128 blocks tile the 16384 rows, so each result array is the specification's array.
-/
import proofs.«138965_j17257178595687_1_alg».proof.Proof.IdealFrame
import proofs.«138965_j17257178595687_1_alg».proof.Proof.IdealStack
import proofs.«138965_j17257178595687_1_alg».proof.Proof.BodyValue
import Idealize.ShloMosaic.Lib.Pipeline.Value

set_option maxRecDepth 16384

noncomputable section

namespace Cert.KernelIdeal.Hand

open Cert.KernelIdeal Cert.KernelIdeal.Gen Cert.Lstm
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

theorem hz : (![0, 0] : Fin 2 → Nat) = fun _ => 0 := funext fun a => by fin_cases a <;> rfl

/-! ## Names for the arrays and the blocks, at their literal types -/

abbrev aX (c : Dev nD) : Mat 16384 1024 := m ((c : Thread nD τ).loc main_arg0)
abbrev aC (c : Dev nD) : Mat 16384 1024 := m ((c : Thread nD τ).loc main_arg1)
abbrev aH (c : Dev nD) : Mat 16384 1024 := m ((c : Thread nD τ).loc main_arg2)
abbrev aWf (c : Dev nD) : Mat 1024 2048 := m ((c : Thread nD τ).loc main_arg3)
abbrev abf (c : Dev nD) : Row 1024 := m ((c : Thread nD τ).loc main_arg4)
abbrev aWi (c : Dev nD) : Mat 1024 2048 := m ((c : Thread nD τ).loc main_arg5)
abbrev abi (c : Dev nD) : Row 1024 := m ((c : Thread nD τ).loc main_arg6)
abbrev aWc (c : Dev nD) : Mat 1024 2048 := m ((c : Thread nD τ).loc main_arg7)
abbrev abc (c : Dev nD) : Row 1024 := m ((c : Thread nD τ).loc main_arg8)
abbrev aWo (c : Dev nD) : Mat 1024 2048 := m ((c : Thread nD τ).loc main_arg9)
abbrev abo (c : Dev nD) : Row 1024 := m ((c : Thread nD τ).loc main_arg10)

abbrev xB (c : Dev nD) (t : Fin cfg0.N) : Vec Ideal S128x1024 .f32 := iblk m c 0 t
abbrev hB (c : Dev nD) (t : Fin cfg0.N) : Vec Ideal S128x1024 .f32 := iblk m c 1 t
abbrev cB (c : Dev nD) (t : Fin cfg0.N) : Vec Ideal S128x1024 .f32 := iblk m c 2 t
abbrev wxB (c : Dev nD) (t : Fin cfg0.N) : Vec Ideal S4096x1024 .bf16 := iblk m c 3 t
abbrev whB (c : Dev nD) (t : Fin cfg0.N) : Vec Ideal S4096x1024 .bf16 := iblk m c 4 t
abbrev bB (c : Dev nD) (t : Fin cfg0.N) : Vec Ideal S1x4096 .f32 := iblk m c 5 t

/-! ## Where each block sits in its array -/

/-- The printed index maps over the grid: the row windows are at block `(t, 0)`, the stacked ones at `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row `p` of point `t`'s blocks is batch row `128·t + p`. -/
def row (t : Fin cfg0.N) (p : Fin 128) : Fin 16384 :=
  ⟨128 * t.val + p.val, by have ht := t.isLt; have hN : cfg0.N = 128 := N_0; have hp := p.isLt; omega⟩

@[simp] theorem row_val (t : Fin cfg0.N) (p : Fin 128) : (row t p).val = 128 * t.val + p.val := rfl

/-- Entry `(p, κ)` of window 0's block at point `t` is entry `(128·t + p, κ)` of its array. -/
theorem emb_0 (t : Fin cfg0.N) (p : Fin 128) (κ : Fin 1024) :
    ((cfg0.win 0).blk t).view.emb (ix2 p κ) = ix2 (row t p) κ := by
  have e := idx_facts t
  funext a; apply Fin.ext
  match a with
  | ⟨0, _⟩ => show win0_0.index t (0 : Fin 2) * 128 + 1 * p.val = 128 * t.val + p.val; omega
  | ⟨1, _⟩ => show win0_0.index t (1 : Fin 2) * 1024 + 1 * κ.val = κ.val; omega
/-- Entry `(p, κ)` of window 1's block at point `t` is entry `(128·t + p, κ)` of its array. -/
theorem emb_1 (t : Fin cfg0.N) (p : Fin 128) (κ : Fin 1024) :
    ((cfg0.win 1).blk t).view.emb (ix2 p κ) = ix2 (row t p) κ := by
  have e := idx_facts t
  funext a; apply Fin.ext
  match a with
  | ⟨0, _⟩ => show win0_1.index t (0 : Fin 2) * 128 + 1 * p.val = 128 * t.val + p.val; omega
  | ⟨1, _⟩ => show win0_1.index t (1 : Fin 2) * 1024 + 1 * κ.val = κ.val; omega
/-- Entry `(p, κ)` of window 2's block at point `t` is entry `(128·t + p, κ)` of its array. -/
theorem emb_2 (t : Fin cfg0.N) (p : Fin 128) (κ : Fin 1024) :
    ((cfg0.win 2).blk t).view.emb (ix2 p κ) = ix2 (row t p) κ := by
  have e := idx_facts t
  funext a; apply Fin.ext
  match a with
  | ⟨0, _⟩ => show win0_2.index t (0 : Fin 2) * 128 + 1 * p.val = 128 * t.val + p.val; omega
  | ⟨1, _⟩ => show win0_2.index t (1 : Fin 2) * 1024 + 1 * κ.val = κ.val; omega
/-- Entry `(p, κ)` of window 6's block at point `t` is entry `(128·t + p, κ)` of its array. -/
theorem emb_6 (t : Fin cfg0.N) (p : Fin 128) (κ : Fin 1024) :
    ((cfg0.win 6).blk t).view.emb (ix2 p κ) = ix2 (row t p) κ := by
  have e := idx_facts t
  funext a; apply Fin.ext
  match a with
  | ⟨0, _⟩ => show win0_6.index t (0 : Fin 2) * 128 + 1 * p.val = 128 * t.val + p.val; omega
  | ⟨1, _⟩ => show win0_6.index t (1 : Fin 2) * 1024 + 1 * κ.val = κ.val; omega
/-- Entry `(p, κ)` of window 7's block at point `t` is entry `(128·t + p, κ)` of its array. -/
theorem emb_7 (t : Fin cfg0.N) (p : Fin 128) (κ : Fin 1024) :
    ((cfg0.win 7).blk t).view.emb (ix2 p κ) = ix2 (row t p) κ := by
  have e := idx_facts t
  funext a; apply Fin.ext
  match a with
  | ⟨0, _⟩ => show win0_7.index t (0 : Fin 2) * 128 + 1 * p.val = 128 * t.val + p.val; omega
  | ⟨1, _⟩ => show win0_7.index t (1 : Fin 2) * 1024 + 1 * κ.val = κ.val; omega
/-- Window 3's block is its whole array. -/
theorem emb_3 (t : Fin cfg0.N) (j : Fin 4096) (κ : Fin 1024) :
    ((cfg0.win 3).blk t).view.emb (ix2 j κ) = ix2 j κ := by
  have e := idx_facts t
  funext a; apply Fin.ext
  match a with
  | ⟨0, _⟩ => show win0_3.index t (0 : Fin 2) * 4096 + 1 * j.val = j.val; omega
  | ⟨1, _⟩ => show win0_3.index t (1 : Fin 2) * 1024 + 1 * κ.val = κ.val; omega
/-- Window 4's block is its whole array. -/
theorem emb_4 (t : Fin cfg0.N) (j : Fin 4096) (κ : Fin 1024) :
    ((cfg0.win 4).blk t).view.emb (ix2 j κ) = ix2 j κ := by
  have e := idx_facts t
  funext a; apply Fin.ext
  match a with
  | ⟨0, _⟩ => show win0_4.index t (0 : Fin 2) * 4096 + 1 * j.val = j.val; omega
  | ⟨1, _⟩ => show win0_4.index t (1 : Fin 2) * 1024 + 1 * κ.val = κ.val; omega
/-- Window 5's block is its whole array. -/
theorem emb_5 (t : Fin cfg0.N) (j : Fin 4096) :
    ((cfg0.win 5).blk t).view.emb (ix2 (0 : Fin 1) j) = ix2 (0 : Fin 1) j := by
  have e := idx_facts t
  funext a; apply Fin.ext
  match a with
  | ⟨0, _⟩ => show win0_5.index t (0 : Fin 2) * 1 + 1 * 0 = 0; omega
  | ⟨1, _⟩ => show win0_5.index t (1 : Fin 2) * 4096 + 1 * j.val = j.val; omega

/-! ## The blocks read at an element -/

theorem xB_apply (c : Dev nD) (t : Fin cfg0.N) (p : Fin 128) (κ : Fin 1024) : xB m c t (ix2 p κ) = aX m c (ix2 (row t p) κ) :=
  (congrArg (V m c main_arg0 : S16384x1024.Idx → EReal) (emb_0 t p κ)).trans (congrFun (V_main_arg0 m c) _)
theorem hB_apply (c : Dev nD) (t : Fin cfg0.N) (p : Fin 128) (κ : Fin 1024) : hB m c t (ix2 p κ) = aH m c (ix2 (row t p) κ) :=
  (congrArg (V m c main_arg2 : S16384x1024.Idx → EReal) (emb_1 t p κ)).trans (congrFun (V_main_arg2 m c) _)
theorem cB_apply (c : Dev nD) (t : Fin cfg0.N) (p : Fin 128) (κ : Fin 1024) : cB m c t (ix2 p κ) = aC m c (ix2 (row t p) κ) :=
  (congrArg (V m c main_arg1 : S16384x1024.Idx → EReal) (emb_2 t p κ)).trans (congrFun (V_main_arg1 m c) _)
theorem wxB_apply (c : Dev nD) (t : Fin cfg0.N) (j : Fin 4096) (κ : Fin 1024) :
    wxB m c t (ix2 j κ) = (V m c main_v9 : S4096x1024.Idx → EReal) (ix2 j κ) :=
  congrArg (V m c main_v9 : S4096x1024.Idx → EReal) (emb_3 t j κ)
theorem whB_apply (c : Dev nD) (t : Fin cfg0.N) (j : Fin 4096) (κ : Fin 1024) :
    whB m c t (ix2 j κ) = (V m c main_v11 : S4096x1024.Idx → EReal) (ix2 j κ) :=
  congrArg (V m c main_v11 : S4096x1024.Idx → EReal) (emb_4 t j κ)
theorem bB_apply (c : Dev nD) (t : Fin cfg0.N) (j : Fin 4096) :
    bB m c t (ix2 (0 : Fin 1) j) = (V m c main_v13 : S1x4096.Idx → EReal) (ix2 (0 : Fin 1) j) :=
  congrArg (V m c main_v13 : S1x4096.Idx → EReal) (emb_5 t j)

/-! ## The block's stacked pre-activation is the gate's pre-activation -/

/-- At row `p` of point `t`'s block and stacked column `1024·g + q`, given that band `g` of the stacked arrays is the
    matrix `W` (first and last 1024 columns) and the bias `b`. -/
theorem gate_eq_pre (c : Dev nD) (t : Fin cfg0.N) (p : Fin 128) (q : Fin 1024) (g : Fin 4) (W : Mat 1024 2048) (b : Row 1024)
    (hx : ∀ κ : Fin 1024, (V m c main_v9 : S4096x1024.Idx → EReal) (ix2 (col g q) κ) = W (ix2 q (lo κ)))
    (hh : ∀ κ : Fin 1024, (V m c main_v11 : S4096x1024.Idx → EReal) (ix2 (col g q) κ) = W (ix2 q (hi κ)))
    (hb : (V m c main_v13 : S1x4096.Idx → EReal) (ix2 (0 : Fin 1) (col g q)) = b (ix1 q)) :
    gate (xB m c t) (hB m c t) (wxB m c t) (whB m c t) (bB m c t) p (col g q) = pre (aX m c) (aH m c) W b (row t p) q := by
  unfold gate pre
  refine congrArg₂ (fun a b : EReal => a + b)
    (congrArg₂ (fun a b : EReal => a + b) (Finset.sum_congr rfl fun κ _ => ?_) (Finset.sum_congr rfl fun κ _ => ?_)) ?_
  · rw [xB_apply, wxB_apply, hx]
  · rw [hB_apply, whB_apply, hh]
  · rw [bB_apply, hb]

theorem gate_f (c : Dev nD) (t : Fin cfg0.N) (p : Fin 128) (q : Fin 1024) :
    gate (xB m c t) (hB m c t) (wxB m c t) (whB m c t) (bB m c t) p (col 0 q) = pre (aX m c) (aH m c) (aWf m c) (abf m c) (row t p) q :=
  gate_eq_pre m c t p q 0 _ _ (stackX_f m c q) (stackH_f m c q) (stackB_f m c q)
theorem gate_i (c : Dev nD) (t : Fin cfg0.N) (p : Fin 128) (q : Fin 1024) :
    gate (xB m c t) (hB m c t) (wxB m c t) (whB m c t) (bB m c t) p (col 1 q) = pre (aX m c) (aH m c) (aWi m c) (abi m c) (row t p) q :=
  gate_eq_pre m c t p q 1 _ _ (stackX_i m c q) (stackH_i m c q) (stackB_i m c q)
theorem gate_c (c : Dev nD) (t : Fin cfg0.N) (p : Fin 128) (q : Fin 1024) :
    gate (xB m c t) (hB m c t) (wxB m c t) (whB m c t) (bB m c t) p (col 2 q) = pre (aX m c) (aH m c) (aWc m c) (abc m c) (row t p) q :=
  gate_eq_pre m c t p q 2 _ _ (stackX_c m c q) (stackH_c m c q) (stackB_c m c q)
theorem gate_o (c : Dev nD) (t : Fin cfg0.N) (p : Fin 128) (q : Fin 1024) :
    gate (xB m c t) (hB m c t) (wxB m c t) (whB m c t) (bB m c t) p (col 3 q) = pre (aX m c) (aH m c) (aWo m c) (abo m c) (row t p) q :=
  gate_eq_pre m c t p q 3 _ _ (stackX_o m c q) (stackH_o m c q) (stackB_o m c q)

/-! ## What a point writes back -/

/-- Point `t` writes back block `t` of the new cell state. -/
theorem flushedC_eq (c : Dev nD) (t : Fin cfg0.N) :
    (dats m 0 c).flushed 6 t = ((cfg0.win 6).blk t).view.read (Elt Ideal) (cNewArr (aX m c) (aC m c) (aH m c) (aWf m c) (abf m c) (aWi m c) (abi m c) (aWc m c) (abc m c)) := by
  show (cfg0.win 6).cut (grid0.coords t) ((dats m 0 c).after 6 t) = _
  rw [after_6]
  unfold outC
  rw [View.canon_unit_zero hz]
  simp only [View.ld_unit_zero (S := S128x1024) hz, View.ld_unit_zero (S := S4096x1024) hz, View.ld_unit_zero (S := S1x4096) hz]
  funext j
  obtain ⟨p, q, rfl⟩ : ∃ (p : Fin 128) (q : Fin 1024), j = ix2 p q := ⟨j 0, j 1, eq_ix2 j⟩
  show k0_pay2 (F := Ideal) (xB m c t) (hB m c t) (wxB m c t) (whB m c t) (bB m c t) (cB m c t) (ix2 p q)
    = cNewArr (aX m c) (aC m c) (aH m c) (aWf m c) (abf m c) (aWi m c) (abi m c) (aWc m c) (abc m c) (((cfg0.win 6).blk t).view.emb (ix2 p q))
  rw [Cert.Lstm.Body.pay2_apply, emb_6, gate_f, gate_i, gate_c, cB_apply]
  rfl

/-- Point `t` writes back block `t` of the new hidden state. -/
theorem flushedH_eq (c : Dev nD) (t : Fin cfg0.N) :
    (dats m 0 c).flushed 7 t = ((cfg0.win 7).blk t).view.read (Elt Ideal) (hNewArr (aX m c) (aC m c) (aH m c) (aWf m c) (abf m c) (aWi m c) (abi m c) (aWc m c) (abc m c) (aWo m c) (abo m c)) := by
  show (cfg0.win 7).cut (grid0.coords t) ((dats m 0 c).after 7 t) = _
  rw [after_7]
  unfold outH
  rw [View.canon_unit_zero hz]
  simp only [View.ld_unit_zero (S := S128x1024) hz, View.ld_unit_zero (S := S4096x1024) hz, View.ld_unit_zero (S := S1x4096) hz]
  funext j
  obtain ⟨p, q, rfl⟩ : ∃ (p : Fin 128) (q : Fin 1024), j = ix2 p q := ⟨j 0, j 1, eq_ix2 j⟩
  show k0_pay3 (F := Ideal) (xB m c t) (hB m c t) (wxB m c t) (whB m c t) (bB m c t) (cB m c t) (ix2 p q)
    = hNewArr (aX m c) (aC m c) (aH m c) (aWf m c) (abf m c) (aWi m c) (abi m c) (aWc m c) (abc m c) (aWo m c) (abo m c) (((cfg0.win 7).blk t).view.emb (ix2 p q))
  rw [Cert.Lstm.Body.pay3_apply, emb_7, gate_f, gate_i, gate_c, gate_o, cB_apply]
  rfl

/-! ## The blocks tile the rows -/

/-- An index of the array is in point `t`'s block of window 6 iff each coordinate is in the block's range. -/
theorem mem_blk_6 (t : Fin cfg0.N) (i : S16384x1024.Idx) :
    i ∈ ((cfg0.win 6).blk t).view.set ↔ ∀ a : Fin 2, win0_6.index t a * S128x1024.size a ≤ (i a).val ∧ (i a).val < win0_6.index t a * S128x1024.size a + S128x1024.size a := by
  show i ∈ ((View.whole main_v14_0).slice (win0_6.rect t)).set ↔ _
  rw [View.set_slice_whole, Rect.mem_set_unit]
  exact Iff.rfl

/-- Every index of the array is in the block of the point its row falls in. -/
theorem cover_6 (i : S16384x1024.Idx) :
    ∃ t : Fin cfg0.N, (cfg0.win 6).flush t = true ∧ i ∈ ((cfg0.win 6).blk t).view.set := by
  have hi0 : (i 0).val < 16384 := (i 0).isLt
  have hi1 : (i 1).val < 1024 := (i 1).isLt
  have hN : cfg0.N = 128 := N_0
  let t : Fin cfg0.N := ⟨(i 0).val / 128, by omega⟩
  have e := idx_facts t
  have ht : t.val = (i 0).val / 128 := rfl
  refine ⟨t, flush0_6 t, ?_⟩
  rw [mem_blk_6]
  intro a
  match a with
  | ⟨0, _⟩ => show win0_6.index t (0 : Fin 2) * 128 ≤ (i 0).val ∧ (i 0).val < win0_6.index t (0 : Fin 2) * 128 + 128; omega
  | ⟨1, _⟩ => show win0_6.index t (1 : Fin 2) * 1024 ≤ (i 1).val ∧ (i 1).val < win0_6.index t (1 : Fin 2) * 1024 + 1024; omega

/-- An index of the array is in point `t`'s block of window 7 iff each coordinate is in the block's range. -/
theorem mem_blk_7 (t : Fin cfg0.N) (i : S16384x1024.Idx) :
    i ∈ ((cfg0.win 7).blk t).view.set ↔ ∀ a : Fin 2, win0_7.index t a * S128x1024.size a ≤ (i a).val ∧ (i a).val < win0_7.index t a * S128x1024.size a + S128x1024.size a := by
  show i ∈ ((View.whole main_v14_1).slice (win0_7.rect t)).set ↔ _
  rw [View.set_slice_whole, Rect.mem_set_unit]
  exact Iff.rfl

/-- Every index of the array is in the block of the point its row falls in. -/
theorem cover_7 (i : S16384x1024.Idx) :
    ∃ t : Fin cfg0.N, (cfg0.win 7).flush t = true ∧ i ∈ ((cfg0.win 7).blk t).view.set := by
  have hi0 : (i 0).val < 16384 := (i 0).isLt
  have hi1 : (i 1).val < 1024 := (i 1).isLt
  have hN : cfg0.N = 128 := N_0
  let t : Fin cfg0.N := ⟨(i 0).val / 128, by omega⟩
  have e := idx_facts t
  have ht : t.val = (i 0).val / 128 := rfl
  refine ⟨t, flush0_7 t, ?_⟩
  rw [mem_blk_7]
  intro a
  match a with
  | ⟨0, _⟩ => show win0_7.index t (0 : Fin 2) * 128 ≤ (i 0).val ∧ (i 0).val < win0_7.index t (0 : Fin 2) * 128 + 128; omega
  | ⟨1, _⟩ => show win0_7.index t (1 : Fin 2) * 1024 ≤ (i 1).val ∧ (i 1).val < win0_7.index t (1 : Fin 2) * 1024 + 1024; omega

/-! ## The arrays after the run -/

theorem finalC (c : Dev nD) : (dats m 0 c).arrAt 6 cfg0.N = cNewArr (aX m c) (aC m c) (aH m c) (aWf m c) (abf m c) (aWi m c) (abi m c) (aWc m c) (abc m c) :=
  (dats m 0 c).arrAt_eq_of_cover 6 (cNewArr (aX m c) (aC m c) (aH m c) (aWf m c) (abf m c) (aWi m c) (abi m c) (aWc m c) (abc m c)) (fun t _ => flushedC_eq m c t) cover_6

theorem finalH (c : Dev nD) : (dats m 0 c).arrAt 7 cfg0.N = hNewArr (aX m c) (aC m c) (aH m c) (aWf m c) (abf m c) (aWi m c) (abi m c) (aWc m c) (abc m c) (aWo m c) (abo m c) :=
  (dats m 0 c).arrAt_eq_of_cover 7 (hNewArr (aX m c) (aC m c) (aH m c) (aWf m c) (abf m c) (aWi m c) (abi m c) (aWc m c) (abc m c) (aWo m c) (abo m c)) (fun t _ => flushedH_eq m c t) cover_7

/-- The run, read: every weakly fair execution of @main terminates with the first result at the new cell state, the
    second at the new hidden state, and the eleven argument arrays as launched. -/
theorem run_values : θ_run defs (onTc (τ := τ) (main (F := Ideal))) ⟨m, fun _ => 0, ρ⟩ fun r => ∀ c : Dev nD,
      r.2.mem ((c.tc : Thread nD τ).loc main_v14_0) = cNewArr (aX m c) (aC m c) (aH m c) (aWf m c) (abf m c) (aWi m c) (abi m c) (aWc m c) (abc m c)
      ∧ r.2.mem ((c.tc : Thread nD τ).loc main_v14_1) = hNewArr (aX m c) (aC m c) (aH m c) (aWf m c) (abf m c) (aWi m c) (abi m c) (aWc m c) (abc m c) (aWo m c) (abo m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h c).1 6).trans (finalC m c), ((h c).1 7).trans (finalH m c),
      args_kept m (dats m) (A_eq m) r h c⟩) (run_main m ρ)

end Cert.KernelIdeal.Hand

end
-- ==== Proof.RefValue.lean ====
/-
  The reference's two results, read one operation at a time, are the LSTM cell of the specification.
-/
import proofs.«138965_j17257178595687_1_alg».proof.Proof.Gen.ReferenceIdeal.Read
import proofs.«138965_j17257178595687_1_alg».proof.Proof.LstmSpec
import Idealize.ShloMosaic.Lib.IdealHost

noncomputable section

open scoped BigOperators

namespace Cert.Lstm.Ref

open Cert.ReferenceIdeal Cert.ReferenceIdeal.Read Idealize.ShloMosaic Idealize.ShloMosaic.ValueIdx

section Reads

variable (x c h : (⟨S16384x1024, .f32⟩ : BufTy).Contents (Elt Ideal))
    (Wf : (⟨S1024x2048, .f32⟩ : BufTy).Contents (Elt Ideal)) (bf : (⟨S1024, .f32⟩ : BufTy).Contents (Elt Ideal))
    (Wi : (⟨S1024x2048, .f32⟩ : BufTy).Contents (Elt Ideal)) (bi : (⟨S1024, .f32⟩ : BufTy).Contents (Elt Ideal))
    (Wc : (⟨S1024x2048, .f32⟩ : BufTy).Contents (Elt Ideal)) (bc : (⟨S1024, .f32⟩ : BufTy).Contents (Elt Ideal))
    (Wo : (⟨S1024x2048, .f32⟩ : BufTy).Contents (Elt Ideal)) (bo : (⟨S1024, .f32⟩ : BufTy).Contents (Elt Ideal))

/-- The row `[x p, h p]` at a column of its first half is `x p` there. -/
theorem xh_lo (p : Fin 16384) (κ : Fin 1024) :
    val_main_v0 (F := Ideal) x h (ix2 p (lo κ)) = x (ix2 p κ) := by
  unfold val_main_v0
  exact concatenate_pair_apply_left 1 x h _ (ix2 p (lo κ)) rfl (ix2 p κ)
    (fun b => match b with
      | ⟨0, _⟩ => rfl
      | ⟨1, _⟩ => rfl)

/-- The row `[x p, h p]` at a column of its second half is `h p` there. -/
theorem xh_hi (p : Fin 16384) (κ : Fin 1024) :
    val_main_v0 (F := Ideal) x h (ix2 p (hi κ)) = h (ix2 p κ) := by
  unfold val_main_v0
  exact concatenate_pair_apply_right 1 x h _ (ix2 p (hi κ)) rfl rfl (ix2 p κ)
    (fun b => match b with
      | ⟨0, _⟩ => fun _ => rfl
      | ⟨1, _⟩ => fun hb => absurd rfl hb)
    (by show κ.val + 1024 = 1024 + κ.val; omega)

/-- Row `col g q` of the four stacked weight matrices is row `q` of gate `g`'s matrix. -/
theorem W_read (g : Fin 4) (q : Fin 1024) (k : Fin 2048) :
    val_main_v1 (F := Ideal) Wf Wi Wc Wo (ix2 (col g q) k) = (![Wf, Wi, Wc, Wo] g) (ix2 q k) := by
  unfold val_main_v1
  exact concatenate_ofFn_apply (t := S4096x2048) (s₁ := S1024x2048) 0 (![Wf, Wi, Wc, Wo]) _ rfl 1024 rfl (ix2 (col g q) k) g
    (by show (1024 * g.val + q.val) / 1024 = g.val; omega) (ix2 q k)
    (by show q.val = (1024 * g.val + q.val) % 1024; omega)
    (fun b => match b with
      | ⟨0, _⟩ => fun hb => absurd rfl hb
      | ⟨1, _⟩ => fun _ => rfl)

/-- Entry `col g q` of the four stacked biases is entry `q` of gate `g`'s bias. -/
theorem b_read (g : Fin 4) (q : Fin 1024) :
    val_main_v2 (F := Ideal) bf bi bc bo (ix1 (col g q)) = (![bf, bi, bc, bo] g) (ix1 q) := by
  unfold val_main_v2
  exact concatenate_ofFn_apply (t := S4096) (s₁ := S1024) 0 (![bf, bi, bc, bo]) _ rfl 1024 rfl (ix1 (col g q)) g
    (by show (1024 * g.val + q.val) / 1024 = g.val; omega) (ix1 q)
    (by show q.val = (1024 * g.val + q.val) % 1024; omega)
    (fun b => match b with
      | ⟨0, _⟩ => fun hb => absurd rfl hb)

/-- The stacked pre-activations at batch row `p`, stacked column `col g q`: gate `g`'s pre-activation at `(p, q)`. -/
theorem gates_read (g : Fin 4) (p : Fin 16384) (q : Fin 1024) :
    val_main_v7 (F := Ideal) x h Wf bf Wi bi Wc bc Wo bo (ix2 p (col g q))
      = pre x h (![Wf, Wi, Wc, Wo] g) (![bf, bi, bc, bo] g) p q := by
  rw [val_main_v7_apply, val_main_v4_apply, val_main_v6_apply, val_main_v5_apply]
  have hl : ∀ k : Fin 2048, lidx_main_v4 (ix2 p (col g q)) k = ix2 p k := fun k => funext fun a => match a with
    | ⟨0, _⟩ => rfl
    | ⟨1, _⟩ => rfl
  have hr : ∀ k : Fin 2048, idx_main_v3 (ridx_main_v4 (ix2 p (col g q)) k) = ix2 (col g q) k := fun k => funext fun a => match a with
    | ⟨0, _⟩ => rfl
    | ⟨1, _⟩ => rfl
  have hb : idx_main_v5 (idx_main_v6 (ix2 p (col g q))) = ix1 (col g q) := funext fun a => match a with
    | ⟨0, _⟩ => rfl
  simp only [val_main_v3_apply, hl, hr, hb, W_read, b_read]
  rw [Cert.Lstm.sum_split]
  simp only [xh_lo, xh_hi]
  rfl

/-- The forget gate: the logistic function of its pre-activation. -/
theorem sig_f (p : Fin 16384) (q : Fin 1024) :
    val_main_v14 (F := Ideal) x h Wf bf Wi bi Wc bc Wo bo (ix2 p q) = Ideal.logistic (pre x h Wf bf p q) := by
  rw [val_main_v14_apply, val_main_v13_apply, val_main_cst_0_apply, val_main_v12_apply, val_main_v11_apply,
    val_main_cst_apply, val_main_v10_apply, val_main_v9_apply, val_main_v8_apply]
  have hi : idx_main_v8 (ix2 p q) = ix2 p (col 0 q) := funext fun a => match a with
    | ⟨0, _⟩ => rfl
    | ⟨1, _⟩ => Fin.ext (by show q.val = 1024 * 0 + q.val; omega)
  rw [hi, gates_read]
  simp only [Ideal.hostDivf_def, Ideal.addf_def, Ideal.hostUnary_exp_def, Ideal.hostNegf_def, Ideal.negf_def,
    Ideal.ofBits_def, Ideal.ofBits_one_f32]
  rfl

/-- The input gate: the logistic function of its pre-activation. -/
theorem sig_i (p : Fin 16384) (q : Fin 1024) :
    val_main_v21 (F := Ideal) x h Wf bf Wi bi Wc bc Wo bo (ix2 p q) = Ideal.logistic (pre x h Wi bi p q) := by
  rw [val_main_v21_apply, val_main_v20_apply, val_main_cst_2_apply, val_main_v19_apply, val_main_v18_apply,
    val_main_cst_1_apply, val_main_v17_apply, val_main_v16_apply, val_main_v15_apply]
  have hi : idx_main_v15 (ix2 p q) = ix2 p (col 1 q) := funext fun a => match a with
    | ⟨0, _⟩ => rfl
    | ⟨1, _⟩ => Fin.ext (by show 1024 + q.val = 1024 * 1 + q.val; omega)
  rw [hi, gates_read]
  simp only [Ideal.hostDivf_def, Ideal.addf_def, Ideal.hostUnary_exp_def, Ideal.hostNegf_def, Ideal.negf_def,
    Ideal.ofBits_def, Ideal.ofBits_one_f32]
  rfl

/-- The candidate: the hyperbolic tangent of its pre-activation. -/
theorem tanh_c (p : Fin 16384) (q : Fin 1024) :
    val_main_v23 (F := Ideal) x h Wf bf Wi bi Wc bc Wo bo (ix2 p q) = Ideal.tanh (pre x h Wc bc p q) := by
  rw [val_main_v23_apply, val_main_v22_apply]
  have hi : idx_main_v22 (ix2 p q) = ix2 p (col 2 q) := funext fun a => match a with
    | ⟨0, _⟩ => rfl
    | ⟨1, _⟩ => Fin.ext (by show 2048 + q.val = 1024 * 2 + q.val; omega)
  rw [hi, gates_read]
  simp only [Ideal.hostUnary_tanh_def]
  rfl

/-- The output gate: the logistic function of its pre-activation. -/
theorem sig_o (p : Fin 16384) (q : Fin 1024) :
    val_main_v30 (F := Ideal) x h Wf bf Wi bi Wc bc Wo bo (ix2 p q) = Ideal.logistic (pre x h Wo bo p q) := by
  rw [val_main_v30_apply, val_main_v29_apply, val_main_cst_4_apply, val_main_v28_apply, val_main_v27_apply,
    val_main_cst_3_apply, val_main_v26_apply, val_main_v25_apply, val_main_v24_apply]
  have hi : idx_main_v24 (ix2 p q) = ix2 p (col 3 q) := funext fun a => match a with
    | ⟨0, _⟩ => rfl
    | ⟨1, _⟩ => Fin.ext (by show 3072 + q.val = 1024 * 3 + q.val; omega)
  rw [hi, gates_read]
  simp only [Ideal.hostDivf_def, Ideal.addf_def, Ideal.hostUnary_exp_def, Ideal.hostNegf_def, Ideal.negf_def,
    Ideal.ofBits_def, Ideal.ofBits_one_f32]
  rfl

/-- The reference's first result at `(p, q)`: the new cell state there. -/
theorem cNew_read (p : Fin 16384) (q : Fin 1024) :
    val_main_v33 (F := Ideal) x c h Wf bf Wi bi Wc bc Wo bo (ix2 p q) = Cert.Lstm.cNew x c h Wf bf Wi bi Wc bc p q := by
  rw [val_main_v33_apply, val_main_v31_apply, val_main_v32_apply, sig_f, sig_i, tanh_c]
  simp only [Ideal.addf_def, Ideal.mulf_def]
  rfl

end Reads

/-- The reference's first result (the new cell state) is `cNewArr` of the arguments. -/
theorem cNew_eq (x c h : (⟨S16384x1024, .f32⟩ : BufTy).Contents (Elt Ideal))
    (Wf : (⟨S1024x2048, .f32⟩ : BufTy).Contents (Elt Ideal)) (bf : (⟨S1024, .f32⟩ : BufTy).Contents (Elt Ideal))
    (Wi : (⟨S1024x2048, .f32⟩ : BufTy).Contents (Elt Ideal)) (bi : (⟨S1024, .f32⟩ : BufTy).Contents (Elt Ideal))
    (Wc : (⟨S1024x2048, .f32⟩ : BufTy).Contents (Elt Ideal)) (bc : (⟨S1024, .f32⟩ : BufTy).Contents (Elt Ideal))
    (Wo : (⟨S1024x2048, .f32⟩ : BufTy).Contents (Elt Ideal)) (bo : (⟨S1024, .f32⟩ : BufTy).Contents (Elt Ideal)) :
    val_main_v33 (F := Ideal) x c h Wf bf Wi bi Wc bc Wo bo = Cert.Lstm.cNewArr x c h Wf bf Wi bi Wc bc := by
  funext j
  obtain ⟨p, q, rfl⟩ : ∃ (p : Fin 16384) (q : Fin 1024), j = ix2 p q := ⟨j 0, j 1, eq_ix2 j⟩
  exact cNew_read x c h Wf bf Wi bi Wc bc Wo bo p q

/-- The reference's second result (the new hidden state) is `hNewArr` of the arguments. -/
theorem hNew_eq (x c h : (⟨S16384x1024, .f32⟩ : BufTy).Contents (Elt Ideal))
    (Wf : (⟨S1024x2048, .f32⟩ : BufTy).Contents (Elt Ideal)) (bf : (⟨S1024, .f32⟩ : BufTy).Contents (Elt Ideal))
    (Wi : (⟨S1024x2048, .f32⟩ : BufTy).Contents (Elt Ideal)) (bi : (⟨S1024, .f32⟩ : BufTy).Contents (Elt Ideal))
    (Wc : (⟨S1024x2048, .f32⟩ : BufTy).Contents (Elt Ideal)) (bc : (⟨S1024, .f32⟩ : BufTy).Contents (Elt Ideal))
    (Wo : (⟨S1024x2048, .f32⟩ : BufTy).Contents (Elt Ideal)) (bo : (⟨S1024, .f32⟩ : BufTy).Contents (Elt Ideal)) :
    val_main_v35 (F := Ideal) x c h Wf bf Wi bi Wc bc Wo bo = Cert.Lstm.hNewArr x c h Wf bf Wi bi Wc bc Wo bo := by
  funext j
  obtain ⟨p, q, rfl⟩ : ∃ (p : Fin 16384) (q : Fin 1024), j = ix2 p q := ⟨j 0, j 1, eq_ix2 j⟩
  rw [val_main_v35_apply, val_main_v34_apply, sig_o, cNew_read]
  simp only [Ideal.mulf_def, Ideal.hostUnary_tanh_def]
  rfl

end Cert.Lstm.Ref

end
-- ==== Proof.lean ====
/-
  An LSTM cell, one fused kernel against its jnp reference, equal over the extended reals.

  The reference joins `x` and `h` into rows of length 2048, stacks the four gates' weight matrices
  into 4096 rows, takes one product `[x, h] · Wᵀ + b`, and applies `σ`, `σ`, `tanh`, `σ` to the four
  1024-column bands: `c_new = σ(f)·c + σ(i)·tanh(g)`, `h_new = σ(o)·tanh(c_new)`.  The kernel's host
  part cuts each weight matrix into its `x` half and its `h` half, stacks each kind, rounds them to
  bf16 (the identity on exact values); its region, 128 rows of the batch at a time, takes
  `x · Wxᵀ + h · Whᵀ + b` and the same activations (`tpu.logistic`, which on the extended reals is
  `1 / (1 + e^(−·))`, the reference's spelling).  The one law between the two: an inner product over
  2048 terms is the sum of its first 1024 and its last 1024 terms; nothing about finiteness is used.

  Frames: the kernel's run is the launch theorem over a one-store-per-output body (both instances,
  from one text); the reference's is its generated run.  `preserves` has no entry.  `algebraic`: both
  runs end at the specification's two arrays of the (agreeing) arguments.
-/
import proofs.«138965_j17257178595687_1_alg».proof.Defs
import proofs.«138965_j17257178595687_1_alg».proof.Proof.Gen.Kernel
import proofs.«138965_j17257178595687_1_alg».proof.Proof.Gen.Kernel.Skeleton
import proofs.«138965_j17257178595687_1_alg».proof.Proof.Gen.Kernel.Launch
import proofs.«138965_j17257178595687_1_alg».proof.Proof.Gen.Kernel.Points
import proofs.«138965_j17257178595687_1_alg».proof.Proof.Gen.KernelIdeal
import proofs.«138965_j17257178595687_1_alg».proof.Proof.Gen.KernelIdeal.Skeleton
import proofs.«138965_j17257178595687_1_alg».proof.Proof.Gen.KernelIdeal.Launch
import proofs.«138965_j17257178595687_1_alg».proof.Proof.Gen.KernelIdeal.Points
import proofs.«138965_j17257178595687_1_alg».proof.Proof.Gen.ReferenceIdeal
import proofs.«138965_j17257178595687_1_alg».proof.Proof.Gen.Pre_finite_inputs
import proofs.«138965_j17257178595687_1_alg».proof.Proof.Gen.ReferenceIdeal.Run
import proofs.«138965_j17257178595687_1_alg».proof.Proof.Gen.ReferenceIdeal.Read
import proofs.«138965_j17257178595687_1_alg».proof.Proof.BitsFrame
import proofs.«138965_j17257178595687_1_alg».proof.Proof.IdealValue
import proofs.«138965_j17257178595687_1_alg».proof.Proof.RefValue
import Idealize.ShloMosaic.Adequacy
import Idealize.ShloMosaic.Init

noncomputable section

namespace Cert.Proof

open Idealize.ShloMosaic Idealize.ShloMosaic.TcCoe Idealize.SL.Sem Cert.Lstm

/-- The kernel, word by word: it runs to the end and leaves its arguments as launched. -/
theorem frame_k : Cert.frame_Kernel := fun m ρ _ => Cert.Kernel.Hand.frame m ρ

/-- The kernel on the extended reals: the same. -/
theorem frame_ki : Cert.frame_KernelIdeal := fun m ρ _ => Cert.KernelIdeal.Hand.frame m ρ

/-- The reference: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories that agree on the eleven arguments both programs end with the new cell state and the new hidden
    state of those arguments. -/
theorem algebraic : Cert.algebraic_KernelIdeal_ReferenceIdeal := by
  intro m ρ m' ρ' _ hagree
  refine ⟨fun c => cNewArr (Cert.KernelIdeal.Hand.aX m c) (Cert.KernelIdeal.Hand.aC m c) (Cert.KernelIdeal.Hand.aH m c)
        (Cert.KernelIdeal.Hand.aWf m c) (Cert.KernelIdeal.Hand.abf m c) (Cert.KernelIdeal.Hand.aWi m c) (Cert.KernelIdeal.Hand.abi m c)
        (Cert.KernelIdeal.Hand.aWc m c) (Cert.KernelIdeal.Hand.abc m c),
      fun c => hNewArr (Cert.KernelIdeal.Hand.aX m c) (Cert.KernelIdeal.Hand.aC m c) (Cert.KernelIdeal.Hand.aH m c)
        (Cert.KernelIdeal.Hand.aWf m c) (Cert.KernelIdeal.Hand.abf m c) (Cert.KernelIdeal.Hand.aWi m c) (Cert.KernelIdeal.Hand.abi m c)
        (Cert.KernelIdeal.Hand.aWc m c) (Cert.KernelIdeal.Hand.abc m c) (Cert.KernelIdeal.Hand.aWo m c) (Cert.KernelIdeal.Hand.abo m c),
      Cert.KernelIdeal.Hand.run_values m ρ, ?_⟩
  refine (θ_run Cert.ReferenceIdeal.defs _ _).mono (fun r h c => ?_) (Cert.ReferenceIdeal.Value.run (F := Ideal) m' ρ')
  obtain ⟨e0, e1, e2, e3, e4, e5, e6, e7, e8, e9, e10⟩ := hagree c
  refine ⟨?_, ?_, (h c).2.2⟩
  · refine (h c).1.trans ((Cert.ReferenceIdeal.Read.val_main_v33_eq _ _ _ _ _ _ _ _ _ _ _).trans ((Cert.Lstm.Ref.cNew_eq _ _ _ _ _ _ _ _ _ _ _).trans ?_))
    rw [e0, e1, e2, e3, e4, e5, e6, e7, e8]
  · refine (h c).2.1.trans ((Cert.ReferenceIdeal.Read.val_main_v35_eq m' c).trans ((Cert.Lstm.Ref.hNew_eq _ _ _ _ _ _ _ _ _ _ _).trans ?_))
    rw [e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
